-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v37) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S1600000x64 : Shape := ⟨2, ![1600000, 64]⟩
abbrev S1600000 : Shape := ⟨1, ![1600000]⟩
abbrev S64x64 : Shape := ⟨2, ![64, 64]⟩
abbrev S64 : Shape := ⟨1, ![64]⟩
abbrev S128x64 : Shape := ⟨2, ![128, 64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S1600000x64 : S_.BroadcastsInDim S1600000x64 (![] : Fin 0 → Fin S1600000x64.rank)
  reducesTo_S1600000x64_S_d0_1 : S1600000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_

variable [Facts]

def fn_part2 {F : FTy → Type} [FloatOps F] (main_arg9 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg6 : FVec F S64 .f32) (main_arg7 : FVec F S64 .f32) (main_arg8 : FVec F S128x64 .f32) (main_arg9 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg8
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg9 main_v33

def fn {F : FTy → Type} [FloatOps F] (main_arg0 : FVec F S50000x64 .f32) (main_arg1 : FVec F S1600000x64 .f32) (main_arg2 : IVec S1600000 32) (main_arg3 : IVec S1600000 32) (main_arg4 : FVec F S64x64 .f32) (main_arg5 : FVec F S64x64 .f32) (main_arg6 : FVec F S64 .f32) (main_arg7 : FVec F S64 .f32) (main_arg8 : FVec F S128x64 .f32) (main_arg9 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S1600000x64 .f32 := Host.absf main_arg1
  let main_cst_0 : FVec F S_ .f32 := constant S_ .f32 0x7F800000#32
  let main_v5 : FVec F S1600000x64 .f32 := broadcastInDim S1600000x64 ![] bcast_S_S1600000x64 main_cst_0
  let main_v6 : IVec S1600000x64 1 := cmpf .olt main_v4 main_v5
  let main_c_1 : IVec S_ 1 := constantI S_ 1 1#1
  let main_v7 : IVec S_ 1 := (fun x v => Host.reduce IntOp.andi x v reducesTo_S1600000x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_v13 main_v16
-- ==== Kernel.lean ====
abbrev S50000x64 : Shape := ⟨2, ![50000, 64]⟩
abbrev S1600000x64 : Shape := ⟨2, ![1600000, 64]⟩
abbrev S1600000 : Shape := ⟨1, ![1600000]⟩
abbrev S64x64 : Shape := ⟨2, ![64, 64]⟩
abbrev S64 : Shape := ⟨1, ![64]⟩
abbrev S128x64 : Shape := ⟨2, ![128, 64]⟩
abbrev S1x64 : Shape := ⟨2, ![1, 64]⟩
abbrev S5000x64 : Shape := ⟨2, ![5000, 64]⟩
abbrev S16000x64 : Shape := ⟨2, ![16000, 64]⟩
abbrev S_ : Shape := ⟨0, ![]⟩
abbrev S1600000x1 : Shape := ⟨2, ![1600000, 1]⟩
abbrev S50000x1 : Shape := ⟨2, ![50000, 1]⟩
abbrev S8000x64 : Shape := ⟨2, ![8000, 64]⟩
abbrev S8000x128 : Shape := ⟨2, ![8000, 128]⟩

abbrev nBuf : Space → Nat
  | .hbm => 58
  | .vmem => 24
  | .smem => 0
  | _ => 0

abbrev bufTy : (tb : Table) → Fin (tcTables nBuf tb) → BufTy
  | .hbm, ⟨0, _⟩ => ⟨S50000x64, .f32⟩
  | .hbm, ⟨1, _⟩ => ⟨S1600000x64, .f32⟩
  | .hbm, ⟨2, _⟩ => ⟨S1600000, .i32⟩
  | .hbm, ⟨3, _⟩ => ⟨S1600000, .i32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64, .f32⟩
  | .hbm, ⟨8, _⟩ => ⟨S128x64, .f32⟩
  | .hbm, ⟨9, _⟩ => ⟨S64, .f32⟩
  | .hbm, ⟨10, _⟩ => ⟨S1x64, .f32⟩
  | .hbm, ⟨11, _⟩ => ⟨S50000x64, .f32⟩
  | .hbm, ⟨12, _⟩ => ⟨S1600000x64, .f32⟩
  | .hbm, ⟨13, _⟩ => ⟨S_, .f32⟩
  | .hbm, ⟨14, _⟩ => ⟨S50000x64, .f32⟩
  | .hbm, ⟨15, _⟩ => ⟨S1600000x1, .i32⟩
  | .hbm, ⟨16, _⟩ => ⟨S50000x64, .f32⟩
  | .hbm, ⟨17, _⟩ => ⟨S_, .f32⟩
  | .hbm, ⟨18, _⟩ => ⟨S1600000x1, .f32⟩
  | .hbm, ⟨19, _⟩ => ⟨S_, .f32⟩
  | .hbm, ⟨20, _⟩ => ⟨S50000x1, .f32⟩
  | .hbm, ⟨21, _⟩ => ⟨S1600000x1, .i32⟩
  | .hbm, ⟨22, _⟩ => ⟨S50000x1, .f32⟩
  | .hbm, ⟨23, _⟩ => ⟨S_, .f32⟩
  | .hbm, ⟨24, _⟩ => ⟨S50000x1, .f32⟩
  | .hbm, ⟨25, _⟩ => ⟨S50000x1, .f32⟩
  | .hbm, ⟨26, _⟩ => ⟨S50000x64, .f32⟩
  | .hbm, ⟨27, _⟩ => ⟨S50000x64, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x64, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000x64, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x64, .f32⟩
  | .hbm, ⟨55, _⟩ => ⟨S1x64, .f32⟩
  | .hbm, ⟨56, _⟩ => ⟨S1x64, .f32⟩
  | .hbm, ⟨57, _⟩ => ⟨S1600000x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S16000x64, .f32⟩
  | .local _ .vmem, ⟨7, _⟩ => ⟨S16000x64, .f32⟩
  | .local _ .vmem, ⟨8, _⟩ => ⟨S64x64, .f32⟩
  | .local _ .vmem, ⟨9, _⟩ => ⟨S16000x64, .f32⟩
  | .local _ .vmem, ⟨10, _⟩ => ⟨S16000x64, .f32⟩
  | .local _ .vmem, ⟨11, _⟩ => ⟨S8000x64, .f32⟩
  | .local _ .vmem, ⟨12, _⟩ => ⟨S8000x64, .f32⟩
  | .local _ .vmem, ⟨13, _⟩ => ⟨S8000x64, .f32⟩
  | .local _ .vmem, ⟨14, _⟩ => ⟨S8000x64, .f32⟩
  | .local _ .vmem, ⟨15, _⟩ => ⟨S8000x64, .f32⟩
  | .local _ .vmem, ⟨16, _⟩ => ⟨S8000x64, .f32⟩
  | .local _ .vmem, ⟨17, _⟩ => ⟨S8000x64, .f32⟩
  | .local _ .vmem, ⟨18, _⟩ => ⟨S8000x64, .f32⟩
  | .local _ .vmem, ⟨19, _⟩ => ⟨S128x64, .f32⟩
  | .local _ .vmem, ⟨20, _⟩ => ⟨S1x64, .f32⟩
  | .local _ .vmem, ⟨21, _⟩ => ⟨S1x64, .f32⟩
  | .local _ .vmem, ⟨22, _⟩ => ⟨S8000x64, .f32⟩
  | .local _ .vmem, ⟨23, _⟩ => ⟨S8000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_c_3 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_4 : Ref sig .tc := ⟨.hbm, 37, rfl⟩
abbrev main_v21 : Ref sig .tc := ⟨.hbm, 38, rfl⟩
abbrev main_v22 : Ref sig .tc := ⟨.hbm, 39, rfl⟩
abbrev main_c_5 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_6 : Ref sig .tc := ⟨.hbm, 46, rfl⟩
abbrev main_v28 : Ref sig .tc := ⟨.hbm, 47, rfl⟩
abbrev main_v29 : Ref sig .tc := ⟨.hbm, 48, rfl⟩
abbrev main_c_7 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg3_1 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg7_0 : Ref sig .tc := ⟨.vmem, 22, rfl⟩
abbrev cc2_stg7_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem3_1 : DmaSem sig := 18
abbrev cc2_sem4_0 : DmaSem sig := 19
abbrev cc2_sem5_0 : DmaSem sig := 20
abbrev cc2_sem6_0 : DmaSem sig := 21
abbrev cc2_sem7_0 : DmaSem sig := 22
abbrev cc2_sem7_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S16000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S16000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S8000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S128x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S8000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S16000x64_S16000x64_0_0 : ∀ a, (![0, 0] : Fin 2 → Nat) a + S16000x64.size a ≤ S16000x64.size a
  h_S16000x64 : 0 < S16000x64.numel
  bcast_S_S50000x64 : S_.BroadcastsInDim S50000x64 (![] : Fin 0 → Fin S50000x64.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  bcast_S_S1600000 : S_.BroadcastsInDim S1600000 (![] : Fin 0 → Fin S1600000.rank)
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  concatenates_S8000x64_S8000x64_S8000x128_d1 : Shape.Concatenates [S8000x64, S8000x64] S8000x128 1
  inb_S128x64_S128x64_0_0 : ∀ a, (![0, 0] : Fin 2 → Nat) a + S128x64.size a ≤ S128x64.size a
  h_S128x64 : 0 < S128x64.numel
  broadcasts_S1x64_S8000x64 : S1x64.Broadcasts S8000x64
  dot_S5000x64_S64x64_S5000x64_1_0_0_1_n_n_wf : DotDims.WF S5000x64 S64x64 S5000x64 [1] [0] [0] [1] [] []
  dot_S16000x64_S64x64_S16000x64_1_0_0_1_n_n_wf : DotDims.WF S16000x64 S64x64 S16000x64 [1] [0] [0] [1] [] []
  scatter_S50000x64_S1600000x1_S1600000x64_1_0_0_1_wf : ScatterDims.WF S50000x64 S1600000x1 S1600000x64 [1] [0] [0] 1
  scatter_S50000x1_S1600000x1_S1600000x1_1_0_0_1_wf : ScatterDims.WF S50000x1 S1600000x1 S1600000x1 [1] [0] [0] 1
  gather_S50000x64_S1600000x1_S1600000x64_1_0_n_n_0_1_164_wf : GatherDims.WF S50000x64 S1600000x1 S1600000x64 [1] [0] [] [0] [] 1 ![1, 64]
  dot_S8000x128_S128x64_S8000x64_1_0_0_1_n_n_wf : DotDims.WF S8000x128 S128x64 S8000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16000x64.size a ≤ S1600000x64.size a
  hwx1_0 : ∀ i : grid1.Coords, EltTy.bits .f32 = 32 ∨ (Rect.block (s := S1600000x64) S16000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S16000x64.size a ≤ S1600000x64.size a
  hwx1_2 : ∀ i : grid1.Coords, EltTy.bits .f32 = 32 ∨ (Rect.block (s := S1600000x64) S16000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x64.size a ≤ S1600000x64.size a
  hwx2_0 : ∀ i : grid2.Coords, EltTy.bits .f32 = 32 ∨ (Rect.block (s := S1600000x64) S8000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x64.size a ≤ S1600000x64.size a
  hwx2_1 : ∀ i : grid2.Coords, EltTy.bits .f32 = 32 ∨ (Rect.block (s := S1600000x64) S8000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8000x64.size a ≤ S1600000x64.size a
  hwx2_2 : ∀ i : grid2.Coords, EltTy.bits .f32 = 32 ∨ (Rect.block (s := S1600000x64) S8000x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S8000x64.size a ≤ S1600000x64.size a
  hwx2_3 : ∀ i : grid2.Coords, EltTy.bits .f32 = 32 ∨ (Rect.block (s := S1600000x64) S8000x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x64.size a ≤ S128x64.size a
  hwx2_4 : ∀ i : grid2.Coords, EltTy.bits .f32 = 32 ∨ (Rect.block (s := S128x64) S128x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S8000x64.size a ≤ S1600000x64.size a
  hwx2_7 : ∀ i : grid2.Coords, EltTy.bits .f32 = 32 ∨ (Rect.block (s := S1600000x64) S8000x64.size (cc2_transform_7 i) (hinb2_7 i)).WholeWords (EltTy.packing .f32)

variable [Facts₀]

def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S16000x64_S64x64_S16000x64_1_0_0_1_n_n : DotDims S16000x64 S64x64 S16000x64 where
  lhsContracting := [1]
  rhsContracting := [0]
  lhsNonContracting := [0]
  rhsNonContracting := [1]
  lhsBatch := []
  rhsBatch := []
  wf := dot_S16000x64_S64x64_S16000x64_1_0_0_1_n_n_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def scatter_S50000x1_S1600000x1_S1600000x1_1_0_0_1 : ScatterDims S50000x1 S1600000x1 S1600000x1 where
  updateWindowDims := [1]
  insertedWindowDims := [0]
  scatterDimsToOperandDims := [0]
  indexVectorDim := 1
  wf := scatter_S50000x1_S1600000x1_S1600000x1_1_0_0_1_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def dot_S8000x128_S128x64_S8000x64_1_0_0_1_n_n : DotDims S8000x128 S128x64 S8000x64 where
  lhsContracting := [1]
  rhsContracting := [0]
  lhsNonContracting := [0]
  rhsNonContracting := [1]
  lhsBatch := []
  rhsBatch := []
  wf := dot_S8000x128_S128x64_S8000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S16000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S16000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v2) S8000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v20) S8000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v27) S8000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v34) S8000x64.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg8) S128x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v35) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v36) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v37) S8000x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S50000x64 : Shape := ⟨2, ![50000, 64]⟩
abbrev S1600000x64 : Shape := ⟨2, ![1600000, 64]⟩
abbrev S1600000 : Shape := ⟨1, ![1600000]⟩
abbrev S64x64 : Shape := ⟨2, ![64, 64]⟩
abbrev S64 : Shape := ⟨1, ![64]⟩
abbrev S128x64 : Shape := ⟨2, ![128, 64]⟩
abbrev S_ : Shape := ⟨0, ![]⟩
abbrev S1600000x1 : Shape := ⟨2, ![1600000, 1]⟩
abbrev S50000x1 : Shape := ⟨2, ![50000, 1]⟩
abbrev S1x64 : Shape := ⟨2, ![1, 64]⟩
abbrev S1600000x128 : Shape := ⟨2, ![1600000, 128]⟩

abbrev nBuf : Space → Nat
  | .hbm => 76
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S1600000x64, .f32⟩
  | .hbm, ⟨2, _⟩ => ⟨S1600000, .i32⟩
  | .hbm, ⟨3, _⟩ => ⟨S1600000, .i32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64, .f32⟩
  | .hbm, ⟨8, _⟩ => ⟨S128x64, .f32⟩
  | .hbm, ⟨9, _⟩ => ⟨S64, .f32⟩
  | .hbm, ⟨10, _⟩ => ⟨S50000x64, .f32⟩
  | .hbm, ⟨11, _⟩ => ⟨S1600000x64, .f32⟩
  | .hbm, ⟨12, _⟩ => ⟨S_, .f32⟩
  | .hbm, ⟨13, _⟩ => ⟨S50000x64, .f32⟩
  | .hbm, ⟨14, _⟩ => ⟨S1600000x1, .i32⟩
  | .hbm, ⟨15, _⟩ => ⟨S50000x64, .f32⟩
  | .hbm, ⟨16, _⟩ => ⟨S_, .f32⟩
  | .hbm, ⟨17, _⟩ => ⟨S1600000x1, .f32⟩
  | .hbm, ⟨18, _⟩ => ⟨S_, .f32⟩
  | .hbm, ⟨19, _⟩ => ⟨S50000x1, .f32⟩
  | .hbm, ⟨20, _⟩ => ⟨S1600000x1, .i32⟩
  | .hbm, ⟨21, _⟩ => ⟨S50000x1, .f32⟩
  | .hbm, ⟨22, _⟩ => ⟨S_, .f32⟩
  | .hbm, ⟨23, _⟩ => ⟨S50000x1, .f32⟩
  | .hbm, ⟨24, _⟩ => ⟨S50000x1, .f32⟩
  | .hbm, ⟨25, _⟩ => ⟨S50000x64, .f32⟩
  | .hbm, ⟨26, _⟩ => ⟨S50000x64, .f32⟩
  | .hbm, ⟨27, _⟩ => ⟨S1x64, .f32⟩
  | .hbm, ⟨28, _⟩ => ⟨S50000x64, .f32⟩
  | .hbm, ⟨29, _⟩ => ⟨S50000x64, .f32⟩
  | .hbm, ⟨30, _⟩ => ⟨S_, .f32⟩
  | .hbm, ⟨31, _⟩ => ⟨S50000x64, .f32⟩
  | .hbm, ⟨32, _⟩ => ⟨S50000x64, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x64, .f32⟩
  | .hbm, ⟨42, _⟩ => ⟨S1600000x64, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x64, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x64, .f32⟩
  | .hbm, ⟨61, _⟩ => ⟨S1600000x64, .f32⟩
  | .hbm, ⟨62, _⟩ => ⟨S_, .f32⟩
  | .hbm, ⟨63, _⟩ => ⟨S1600000x64, .f32⟩
  | .hbm, ⟨64, _⟩ => ⟨S1600000x64, .f32⟩
  | .hbm, ⟨65, _⟩ => ⟨S1600000x128, .f32⟩
  | .hbm, ⟨66, _⟩ => ⟨S1600000x64, .f32⟩
  | .hbm, ⟨67, _⟩ => ⟨S1x64, .f32⟩
  | .hbm, ⟨68, _⟩ => ⟨S1600000x64, .f32⟩
  | .hbm, ⟨69, _⟩ => ⟨S1600000x64, .f32⟩
  | .hbm, ⟨70, _⟩ => ⟨S1x64, .f32⟩
  | .hbm, ⟨71, _⟩ => ⟨S1600000x64, .f32⟩
  | .hbm, ⟨72, _⟩ => ⟨S1600000x64, .f32⟩
  | .hbm, ⟨73, _⟩ => ⟨S_, .f32⟩
  | .hbm, ⟨74, _⟩ => ⟨S1600000x64, .f32⟩
  | .hbm, ⟨75, _⟩ => ⟨S1600000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_call0_cst : Ref sig .tc := ⟨.hbm, 30, rfl⟩
abbrev main_call0_v0 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_4 : Ref sig .tc := ⟨.hbm, 43, rfl⟩
abbrev main_v25 : Ref sig .tc := ⟨.hbm, 44, rfl⟩
abbrev main_v26 : Ref sig .tc := ⟨.hbm, 45, rfl⟩
abbrev main_c_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_c_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_8 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_call1_cst : Ref sig .tc := ⟨.hbm, 73, rfl⟩
abbrev main_call1_v0 : Ref sig .tc := ⟨.hbm, 74, rfl⟩
abbrev main_v50 : Ref sig .tc := ⟨.hbm, 75, rfl⟩

abbrev nD : Nat := 1
abbrev τ : Topo := Topo.v7x

variable {F : FTy → Type} [FloatOps F]

class Facts₀ : Prop where
  bcast_S_S50000x64 : S_.BroadcastsInDim S50000x64 (![] : Fin 0 → Fin S50000x64.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S1600000 : S_.BroadcastsInDim S1600000 (![] : Fin 0 → Fin S1600000.rank)
  bcast_S_S1600000x64 : S_.BroadcastsInDim S1600000x64 (![] : Fin 0 → Fin S1600000x64.rank)
  concatenates_S1600000x64_S1600000x64_S1600000x128_d1 : Shape.Concatenates [S1600000x64, S1600000x64] S1600000x128 1
  bcast_S1x64_S1600000x64_0_1 : S1x64.BroadcastsInDim S1600000x64 (![0, 1] : Fin 2 → Fin S1600000x64.rank)
  dot_S50000x64_S64x64_S50000x64_1_0_0_1_n_n_wf : DotDims.WF S50000x64 S64x64 S50000x64 [1] [0] [0] [1] [] []
  dot_S1600000x64_S64x64_S1600000x64_1_0_0_1_n_n_wf : DotDims.WF S1600000x64 S64x64 S1600000x64 [1] [0] [0] [1] [] []
  scatter_S50000x64_S1600000x1_S1600000x64_1_0_0_1_wf : ScatterDims.WF S50000x64 S1600000x1 S1600000x64 [1] [0] [0] 1
  scatter_S50000x1_S1600000x1_S1600000x1_1_0_0_1_wf : ScatterDims.WF S50000x1 S1600000x1 S1600000x1 [1] [0] [0] 1
  gather_S50000x64_S1600000x1_S1600000x64_1_0_n_n_0_1_164_wf : GatherDims.WF S50000x64 S1600000x1 S1600000x64 [1] [0] [] [0] [] 1 ![1, 64]
  dot_S1600000x128_S128x64_S1600000x64_1_0_0_1_n_n_wf : DotDims.WF S1600000x128 S128x64 S1600000x64 [1] [0] [0] [1] [] []

variable [Facts₀]

def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def scatter_S50000x1_S1600000x1_S1600000x1_1_0_0_1 : ScatterDims S50000x1 S1600000x1 S1600000x1 where
  updateWindowDims := [1]
  insertedWindowDims := [0]
  scatterDimsToOperandDims := [0]
  indexVectorDim := 1
  wf := scatter_S50000x1_S1600000x1_S1600000x1_1_0_0_1_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def dot_S1600000x128_S128x64_S1600000x64_1_0_0_1_n_n : DotDims S1600000x128 S128x64 S1600000x64 where
  lhsContracting := [1]
  rhsContracting := [0]
  lhsNonContracting := [0]
  rhsNonContracting := [1]
  lhsBatch := []
  rhsBatch := []
  wf := dot_S1600000x128_S128x64_S1600000x64_1_0_0_1_n_n_wf

class Facts : Prop extends Facts₀ where

variable [Facts]
-- ==== Proof.HostFns.lean ====
/- The host operations the kernel's program runs between its regions, as named functions of the arrays they read:
   the wrap of a possibly negative node index, the gather of a 50000-row table at wrapped indices, and the mean over
   incoming edges (the scatter-added sums over the scatter-added counts, the count clipped below at one) gathered at
   the destination indices. They are never opened: the reference applies the same operations. -/
import proofs.«157868_j17849884082713_1_alg».proof.Proof.Gen.KernelIdeal

noncomputable section

namespace Cert.KernelIdeal.HostFns

open Cert.KernelIdeal Cert.KernelIdeal.Gen Idealize.ShloMosaic Idealize.ShloMosaic.TcCoe

variable {F : FTy → Type} [FloatOps F]

/-- A node index made non-negative by adding the number of nodes to a negative one, as a column of start indices. -/
def wrapIdx (ix : IVec S1600000 32) : IVec S1600000x1 32 :=
  broadcastInDim S1600000x1 ![0] bcast_S1600000_S1600000x1_0
    (select (cmpi .slt ix (broadcastInDim S1600000 ![] bcast_S_S1600000 (constantI S_ 32 0#32)))
      (addi ix (broadcastInDim S1600000 ![] bcast_S_S1600000 (constantI S_ 32 50000#32))) ix)

/-- The rows of a node table at the wrapped indices. -/
def rowGather (tbl : FVec F S50000x64 .f32) (ix : IVec S1600000 32) : FVec F S1600000x64 .f32 :=
  Host.gather gather_S50000x64_S1600000x1_S1600000x64_1_0_n_n_0_1_164 tbl (wrapIdx ix)

/-- Per node, the mean of the rows of `efp` over the edges that point at it (a node with none keeps zero). -/
def nbMean (efp : FVec F S1600000x64 .f32) (dst : IVec S1600000 32) : FVec F S50000x64 .f32 :=
  Host.divf
    (Host.scatterAdd scatter_S50000x64_S1600000x1_S1600000x64_1_0_0_1
      (broadcastInDim S50000x64 ![] bcast_S_S50000x64 (constant (F := F) S_ .f32 0x00000000#32))
      (broadcastInDim S1600000x1 ![0] bcast_S1600000_S1600000x1_0 dst) efp)
    (broadcastInDim S50000x64 ![0, 1] bcast_S50000x1_S50000x64_0_1
      (maximumf
        (Host.scatterAdd scatter_S50000x1_S1600000x1_S1600000x1_1_0_0_1
          (broadcastInDim S50000x1 ![] bcast_S_S50000x1 (constant (F := F) S_ .f32 0x00000000#32))
          (broadcastInDim S1600000x1 ![0] bcast_S1600000_S1600000x1_0 dst)
          (broadcastInDim S1600000x1 ![] bcast_S_S1600000x1 (constant (F := F) S_ .f32 0x3F800000#32)))
        (broadcastInDim S50000x1 ![] bcast_S_S50000x1 (constant (F := F) S_ .f32 0x3F800000#32))))

end Cert.KernelIdeal.HostFns

end
-- ==== Proof.FoldRead.lean ====
/- The buffer contents at each boundary of the kernel's program, read back: the two results are the node region's and
   the dense region's output arrays after their runs; each region is entered with the arguments as launched, the bias
   rows as reshapes of the bias vectors, the edge projection as the projection region left it, and the three gathered
   arrays as the host operations between the regions compute them from the earlier regions' outputs. -/
import proofs.«157868_j17849884082713_1_alg».proof.Proof.Gen.KernelIdeal.Frame
import proofs.«157868_j17849884082713_1_alg».proof.Proof.HostFns
import Idealize.ShloMosaic.Lib.Pipeline.Value
import Idealize.ShloMosaic.Lib.ValueIdx
import Idealize.ShloMosaic.Lib.StableHlo.Run

set_option maxRecDepth 16384

noncomputable section

namespace Cert.KernelIdeal.Fold

open Cert.KernelIdeal Cert.KernelIdeal.Gen Cert.KernelIdeal.HostFns
open Idealize.ShloMosaic Idealize.ShloMosaic.TcCoe Idealize.SL.Sem Idealize.ShloMosaic.ValueIdx Idealize.ShloMosaic.StableHlo

variable {F : FTy → Type} [FloatOps F]
variable (m : (ℓ : Loc nD τ sig) → Buf (Elt F) ℓ) (ρ : Dev nD → PrngReg)

/-! ## The first stretch: one reshape of the node bias -/

/-- A reshape of a 64-vector to a 1 × 64 row read at column j is the vector at j. -/
theorem row_of_vec {α : Type} (v : S64.Idx → α) (j : Fin 64) : shapeCast S1x64 v shapeCasts_S64_S1x64 (ix2 0 j) = v (ix1 j) := by
  refine (shapeCast_addUnit_apply (![64] : Fin 1 → Nat) v shapeCasts_S64_S1x64 (ix2 0 j)).trans ?_
  exact congrArg v (funext fun a => by match a with | ⟨0, _⟩ => rfl)

theorem entry0_x (c : Dev nD) : V1 m ρ c main_arg0 = m ((c : Thread nD τ).loc main_arg0) := by
  show StableHlo.after hostOps0 (W0 m ρ c) (Proc.devRef .tc main_arg0) = _
  after_results

theorem entry0_w (c : Dev nD) : V1 m ρ c main_arg4 = m ((c : Thread nD τ).loc main_arg4) := by
  show StableHlo.after hostOps0 (W0 m ρ c) (Proc.devRef .tc main_arg4) = _
  after_results

theorem entry0_b (c : Dev nD) (j : Fin 64) : V1 m ρ c main_v0 (ix2 0 j) = m ((c : Thread nD τ).loc main_arg6) (ix1 j) := by
  have e : V1 m ρ c main_v0 = shapeCast S1x64 (m ((c : Thread nD τ).loc main_arg6)) shapeCasts_S64_S1x64 := by
    show StableHlo.after hostOps0 (W0 m ρ c) (Proc.devRef .tc main_v0) = _
    after_results; rfl
  rw [e]
  exact row_of_vec _ j

/-! ## Arguments the later segments read are still as launched -/

theorem W1_arg1 (c : Dev nD) : W1 m ρ c (Proc.devRef .tc main_arg1) = m ((c : Thread nD τ).loc main_arg1) := by
  show StableHlo.after hostOps0 (W0 m ρ c) (Proc.devRef .tc main_arg1) = _; after_results
theorem W1_arg2 (c : Dev nD) : W1 m ρ c (Proc.devRef .tc main_arg2) = m ((c : Thread nD τ).loc main_arg2) := by
  show StableHlo.after hostOps0 (W0 m ρ c) (Proc.devRef .tc main_arg2) = _; after_results
theorem W1_arg3 (c : Dev nD) : W1 m ρ c (Proc.devRef .tc main_arg3) = m ((c : Thread nD τ).loc main_arg3) := by
  show StableHlo.after hostOps0 (W0 m ρ c) (Proc.devRef .tc main_arg3) = _; after_results
theorem W1_arg5 (c : Dev nD) : W1 m ρ c (Proc.devRef .tc main_arg5) = m ((c : Thread nD τ).loc main_arg5) := by
  show StableHlo.after hostOps0 (W0 m ρ c) (Proc.devRef .tc main_arg5) = _; after_results
theorem W1_arg7 (c : Dev nD) : W1 m ρ c (Proc.devRef .tc main_arg7) = m ((c : Thread nD τ).loc main_arg7) := by
  show StableHlo.after hostOps0 (W0 m ρ c) (Proc.devRef .tc main_arg7) = _; after_results
theorem W1_arg8 (c : Dev nD) : W1 m ρ c (Proc.devRef .tc main_arg8) = m ((c : Thread nD τ).loc main_arg8) := by
  show StableHlo.after hostOps0 (W0 m ρ c) (Proc.devRef .tc main_arg8) = _; after_results
theorem W1_arg9 (c : Dev nD) : W1 m ρ c (Proc.devRef .tc main_arg9) = m ((c : Thread nD τ).loc main_arg9) := by
  show StableHlo.after hostOps0 (W0 m ρ c) (Proc.devRef .tc main_arg9) = _; after_results

theorem W2_arg1 (c : Dev nD) : W2 m ρ c (Proc.devRef .tc main_arg1) = m ((c : Thread nD τ).loc main_arg1) :=
  (W2_of_ne m ρ c main_arg1 (by decide)).trans (W1_arg1 m ρ c)
theorem W2_arg2 (c : Dev nD) : W2 m ρ c (Proc.devRef .tc main_arg2) = m ((c : Thread nD τ).loc main_arg2) :=
  (W2_of_ne m ρ c main_arg2 (by decide)).trans (W1_arg2 m ρ c)
theorem W2_arg3 (c : Dev nD) : W2 m ρ c (Proc.devRef .tc main_arg3) = m ((c : Thread nD τ).loc main_arg3) :=
  (W2_of_ne m ρ c main_arg3 (by decide)).trans (W1_arg3 m ρ c)
theorem W2_arg5 (c : Dev nD) : W2 m ρ c (Proc.devRef .tc main_arg5) = m ((c : Thread nD τ).loc main_arg5) :=
  (W2_of_ne m ρ c main_arg5 (by decide)).trans (W1_arg5 m ρ c)
theorem W2_arg7 (c : Dev nD) : W2 m ρ c (Proc.devRef .tc main_arg7) = m ((c : Thread nD τ).loc main_arg7) :=
  (W2_of_ne m ρ c main_arg7 (by decide)).trans (W1_arg7 m ρ c)
theorem W2_arg8 (c : Dev nD) : W2 m ρ c (Proc.devRef .tc main_arg8) = m ((c : Thread nD τ).loc main_arg8) :=
  (W2_of_ne m ρ c main_arg8 (by decide)).trans (W1_arg8 m ρ c)
theorem W2_arg9 (c : Dev nD) : W2 m ρ c (Proc.devRef .tc main_arg9) = m ((c : Thread nD τ).loc main_arg9) :=
  (W2_of_ne m ρ c main_arg9 (by decide)).trans (W1_arg9 m ρ c)

theorem W3_arg2 (c : Dev nD) : W3 m ρ c (Proc.devRef .tc main_arg2) = m ((c : Thread nD τ).loc main_arg2) :=
  (W3_of_ne m ρ c main_arg2 (by decide)).trans (W2_arg2 m ρ c)
theorem W3_arg3 (c : Dev nD) : W3 m ρ c (Proc.devRef .tc main_arg3) = m ((c : Thread nD τ).loc main_arg3) :=
  (W3_of_ne m ρ c main_arg3 (by decide)).trans (W2_arg3 m ρ c)
theorem W3_arg7 (c : Dev nD) : W3 m ρ c (Proc.devRef .tc main_arg7) = m ((c : Thread nD τ).loc main_arg7) :=
  (W3_of_ne m ρ c main_arg7 (by decide)).trans (W2_arg7 m ρ c)
theorem W3_arg8 (c : Dev nD) : W3 m ρ c (Proc.devRef .tc main_arg8) = m ((c : Thread nD τ).loc main_arg8) :=
  (W3_of_ne m ρ c main_arg8 (by decide)).trans (W2_arg8 m ρ c)
theorem W3_arg9 (c : Dev nD) : W3 m ρ c (Proc.devRef .tc main_arg9) = m ((c : Thread nD τ).loc main_arg9) :=
  (W3_of_ne m ρ c main_arg9 (by decide)).trans (W2_arg9 m ρ c)

/-! ## The two small regions' outputs, as the later segments find them -/

/-- The projection region is entered with the edge features and its weight as launched. -/
theorem entry1_x (c : Dev nD) : V2 m ρ c main_arg1 = m ((c : Thread nD τ).loc main_arg1) := W2_arg1 m ρ c
theorem entry1_w (c : Dev nD) : V2 m ρ c main_arg5 = m ((c : Thread nD τ).loc main_arg5) := W2_arg5 m ρ c

/-- The node region's output array, untouched by the projection region. -/
theorem W3_node (c : Dev nD) : W3 m ρ c (Proc.devRef .tc main_v1) = (dat0 (V1 m ρ) c).arrAt 3 cfg0.N :=
  (W3_of_ne m ρ c main_v1 (by decide)).trans (W2_arr m ρ c 3)

/-- The projection region's output array. -/
theorem W3_proj (c : Dev nD) : W3 m ρ c (Proc.devRef .tc main_v2) = (dat1 (V2 m ρ) c).arrAt 2 cfg1.N := W3_arr m ρ c 2

/-! ## The long stretch before the dense region -/

theorem entry2_efp (c : Dev nD) : V4 m ρ c main_v2 = (dat1 (V2 m ρ) c).arrAt 2 cfg1.N := by
  show StableHlo.after hostOps2 (W3 m ρ c) (Proc.devRef .tc main_v2) = _
  after_results_simp
  exact W3_proj m ρ c

theorem entry2_w (c : Dev nD) : V4 m ρ c main_arg8 = m ((c : Thread nD τ).loc main_arg8) := by
  show StableHlo.after hostOps2 (W3 m ρ c) (Proc.devRef .tc main_arg8) = _
  after_results_simp
  exact W3_arg8 m ρ c

theorem entry2_nb (c : Dev nD) :
    V4 m ρ c main_v20 = rowGather (nbMean ((dat1 (V2 m ρ) c).arrAt 2 cfg1.N) (m ((c : Thread nD τ).loc main_arg3))) (m ((c : Thread nD τ).loc main_arg3)) := by
  show StableHlo.after hostOps2 (W3 m ρ c) (Proc.devRef .tc main_v20) = _
  after_results_simp
  rw [W3_proj m ρ c, W3_arg3 m ρ c]
  rfl

theorem entry2_src (c : Dev nD) :
    V4 m ρ c main_v27 = rowGather ((dat0 (V1 m ρ) c).arrAt 3 cfg0.N) (m ((c : Thread nD τ).loc main_arg2)) := by
  show StableHlo.after hostOps2 (W3 m ρ c) (Proc.devRef .tc main_v27) = _
  after_results_simp
  rw [W3_node m ρ c, W3_arg2 m ρ c]
  rfl

theorem entry2_dst (c : Dev nD) :
    V4 m ρ c main_v34 = rowGather ((dat0 (V1 m ρ) c).arrAt 3 cfg0.N) (m ((c : Thread nD τ).loc main_arg3)) := by
  show StableHlo.after hostOps2 (W3 m ρ c) (Proc.devRef .tc main_v34) = _
  after_results_simp
  rw [W3_node m ρ c, W3_arg3 m ρ c]
  rfl

theorem entry2_bd (c : Dev nD) (j : Fin 64) : V4 m ρ c main_v35 (ix2 0 j) = m ((c : Thread nD τ).loc main_arg9) (ix1 j) := by
  have e : V4 m ρ c main_v35 = shapeCast S1x64 (m ((c : Thread nD τ).loc main_arg9)) shapeCasts_S64_S1x64 := by
    show StableHlo.after hostOps2 (W3 m ρ c) (Proc.devRef .tc main_v35) = _
    after_results_simp
    rw [W3_arg9 m ρ c]
    rfl
  rw [e]
  exact row_of_vec _ j

theorem entry2_be (c : Dev nD) (j : Fin 64) : V4 m ρ c main_v36 (ix2 0 j) = m ((c : Thread nD τ).loc main_arg7) (ix1 j) := by
  have e : V4 m ρ c main_v36 = shapeCast S1x64 (m ((c : Thread nD τ).loc main_arg7)) shapeCasts_S64_S1x64 := by
    show StableHlo.after hostOps2 (W3 m ρ c) (Proc.devRef .tc main_v36) = _
    after_results_simp
    rw [W3_arg7 m ρ c]
    rfl
  rw [e]
  exact row_of_vec _ j

/-! ## The two results at the last boundary -/

theorem out_node (c : Dev nD) : W5 m ρ c (Proc.devRef .tc main_v1) = (dat0 (V1 m ρ) c).arrAt 3 cfg0.N := by
  refine (W5_of_ne m ρ c main_v1 (by decide)).trans ?_
  show StableHlo.after hostOps2 (W3 m ρ c) (Proc.devRef .tc main_v1) = _
  after_results_simp
  exact W3_node m ρ c

theorem out_edge (c : Dev nD) : W5 m ρ c (Proc.devRef .tc main_v37) = (dat2 (V4 m ρ) c).arrAt 7 cfg2.N := W5_arr m ρ c 7

end Cert.KernelIdeal.Fold

end
-- ==== Proof.Spec.lean ====
/-
  The mathematics of one message-passing layer on a graph, entry by entry, over the extended reals.

  Node features `x` (one row per node) and edge features `e` (one row per edge) are 64 wide.
    * `proj x w`      : the linear map of every row, entry (r, j) = Σ_k x[r,k] · w[k,j];
    * `node x w b`    : max(proj x w + b, 0), the bias `b` added along the row;
    * `dense a b c d w bd be` : for each edge row r the 128-vector whose first half is a[r,·] + b[r,·] and whose second
      half is (c[r,·] + d[r,·]) · ½ is mapped by the 128 × 64 weight `w`, both biases are added, and the result is
      clipped below at 0.
  The constants 0 and ½ are kept as the binary words both programs spell (0x00000000, 0x3F000000).
-/
import Idealize.ShloMosaic.PureOps.Ideal
import Idealize.ShloMosaic.Lib.ValueIdx

noncomputable section

namespace Cert.MessagePassing

open Idealize.ShloMosaic Idealize.ShloMosaic.ValueIdx

/-- Entry (r, j) of the product of an N × 64 array with a 64 × 64 weight. -/
def projAt {N : Nat} (x : FVec Ideal ⟨2, ![N, 64]⟩ .f32) (w : FVec Ideal ⟨2, ![64, 64]⟩ .f32) (r : Fin N) (j : Fin 64) : EReal :=
  ∑ k : Fin 64, x (ix2 r k) * w (ix2 k j)

/-- The product of an N × 64 array with a 64 × 64 weight. -/
def proj {N : Nat} (x : FVec Ideal ⟨2, ![N, 64]⟩ .f32) (w : FVec Ideal ⟨2, ![64, 64]⟩ .f32) : FVec Ideal ⟨2, ![N, 64]⟩ .f32 :=
  fun i => projAt x w ⟨(i 0).val, (i 0).isLt⟩ ⟨(i 1).val, (i 1).isLt⟩

/-- Entry (r, j) of the node update: the projected row plus the bias, clipped below at zero. -/
def nodeAt {N : Nat} (x : FVec Ideal ⟨2, ![N, 64]⟩ .f32) (w : FVec Ideal ⟨2, ![64, 64]⟩ .f32) (b : Fin 64 → EReal) (r : Fin N) (j : Fin 64) : EReal :=
  max (projAt x w r j + b j) (Ideal.ofBits .f32 0x00000000#32)

/-- The node update of every row. -/
def node {N : Nat} (x : FVec Ideal ⟨2, ![N, 64]⟩ .f32) (w : FVec Ideal ⟨2, ![64, 64]⟩ .f32) (b : Fin 64 → EReal) : FVec Ideal ⟨2, ![N, 64]⟩ .f32 :=
  fun i => nodeAt x w b ⟨(i 0).val, (i 0).isLt⟩ ⟨(i 1).val, (i 1).isLt⟩

/-- Entry k of the 128-vector an edge row feeds to the dense map: a + b on the first 64 places, (c + d) · ½ on the last 64. -/
def catAt {N : Nat} (a b c d : FVec Ideal ⟨2, ![N, 64]⟩ .f32) (r : Fin N) (k : Fin 128) : EReal :=
  if h : k.val < 64 then a (ix2 r ⟨k.val, h⟩) + b (ix2 r ⟨k.val, h⟩)
  else (c (ix2 r ⟨k.val - 64, by omega⟩) + d (ix2 r ⟨k.val - 64, by omega⟩)) * Ideal.ofBits .f32 0x3F000000#32

/-- Entry (r, j) of the edge update. -/
def denseAt {N : Nat} (a b c d : FVec Ideal ⟨2, ![N, 64]⟩ .f32) (w : FVec Ideal ⟨2, ![128, 64]⟩ .f32) (bd be : Fin 64 → EReal)
    (r : Fin N) (j : Fin 64) : EReal :=
  max ((∑ k : Fin 128, catAt a b c d r k * w (ix2 k j)) + bd j + be j) (Ideal.ofBits .f32 0x00000000#32)

/-- The edge update of every row. -/
def dense {N : Nat} (a b c d : FVec Ideal ⟨2, ![N, 64]⟩ .f32) (w : FVec Ideal ⟨2, ![128, 64]⟩ .f32) (bd be : Fin 64 → EReal) :
    FVec Ideal ⟨2, ![N, 64]⟩ .f32 :=
  fun i => denseAt a b c d w bd be ⟨(i 0).val, (i 0).isLt⟩ ⟨(i 1).val, (i 1).isLt⟩

end Cert.MessagePassing

end
-- ==== Proof.ProjRegion.lean ====
/- The edge projection region: after its 100 grid points the output array holds, entry by entry, the product of the
   edge-feature array with the 64 × 64 weight, whatever the buffers held when the region was entered. -/
import proofs.«157868_j17849884082713_1_alg».proof.Proof.Gen.KernelIdeal.Frame
import proofs.«157868_j17849884082713_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.ProjRegion

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The offset of a whole-block access is zero on both axes. -/
theorem hz : (![0, 0] : Fin 2 → Nat) = fun _ => 0 := funext fun a => by fin_cases a <;> rfl

/-- The index maps over the grid: the row-blocked input moves with the output, whose row block is the point's own;
    the weight sits at block (0, 0); nothing moves along the columns. -/
theorem idx_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- The left operand of the contraction is read at the output's row … -/
theorem lhs_dot_0 (i : S16000x64.Idx) (q : dot_S16000x64_S64x64_S16000x64_1_0_0_1_n_n.contr.Idx) :
    (dot_S16000x64_S64x64_S16000x64_1_0_0_1_n_n.lhsIdx i q 0).val = (i 0).val := by
  unfold DotDims.lhsIdx
  rw [dif_neg (show ¬(0 : Fin S16000x64.rank) ∈ dot_S16000x64_S64x64_S16000x64_1_0_0_1_n_n.lhsBatch by decide), dif_pos (show (0 : Fin S16000x64.rank) ∈ dot_S16000x64_S64x64_S16000x64_1_0_0_1_n_n.lhsNonContracting by decide)]
  rfl
/-- … and at the contracted place along its columns; -/
theorem lhs_dot_1 (i : S16000x64.Idx) (q : dot_S16000x64_S64x64_S16000x64_1_0_0_1_n_n.contr.Idx) :
    (dot_S16000x64_S64x64_S16000x64_1_0_0_1_n_n.lhsIdx i q 1).val = (q ⟨0, by decide⟩).val :=
  dot_S16000x64_S64x64_S16000x64_1_0_0_1_n_n.lhsIdx_val_of_single rfl i q
/-- the right operand at the contracted place along its rows … -/
theorem rhs_dot_0 (i : S16000x64.Idx) (q : dot_S16000x64_S64x64_S16000x64_1_0_0_1_n_n.contr.Idx) :
    (dot_S16000x64_S64x64_S16000x64_1_0_0_1_n_n.rhsIdx i q 0).val = (q ⟨0, by decide⟩).val :=
  dot_S16000x64_S64x64_S16000x64_1_0_0_1_n_n.rhsIdx_val_of_single rfl i q
/-- … and at the output's column. -/
theorem rhs_dot_1 (i : S16000x64.Idx) (q : dot_S16000x64_S64x64_S16000x64_1_0_0_1_n_n.contr.Idx) :
    (dot_S16000x64_S64x64_S16000x64_1_0_0_1_n_n.rhsIdx i q 1).val = (i 1).val := by
  unfold DotDims.rhsIdx
  rw [dif_neg (show ¬(1 : Fin S64x64.rank) ∈ dot_S16000x64_S64x64_S16000x64_1_0_0_1_n_n.rhsBatch by decide), dif_pos (show (1 : Fin S64x64.rank) ∈ dot_S16000x64_S64x64_S16000x64_1_0_0_1_n_n.rhsNonContracting by decide)]
  rfl

/-- The body's value at place (p, q) of its block: row p of the row block against column q of the weight block. -/
theorem pay_apply (x0 : Vec Ideal S16000x64 .f32) (x1 : Vec Ideal S64x64 .f32) (p : Fin 16000) (q : Fin 64) :
    k1_pay1 (F := Ideal) x0 x1 (ix2 p q) = ∑ k : Fin 64, x0 (ix2 p k) * x1 (ix2 k q) := by
  unfold k1_pay1
  refine (Ideal.matmul_constant_zero_apply dot_S16000x64_S64x64_S16000x64_1_0_0_1_n_n none _ _ _).trans ?_
  rw [← Equiv.sum_comp (contrEquiv1 dot_S16000x64_S64x64_S16000x64_1_0_0_1_n_n 64 rfl rfl).symm]
  refine Finset.sum_congr rfl fun k _ => ?_
  have hk := contrEquiv1_symm_val dot_S16000x64_S64x64_S16000x64_1_0_0_1_n_n 64 rfl rfl k
  have el : dot_S16000x64_S64x64_S16000x64_1_0_0_1_n_n.lhsIdx (ix2 p q) ((contrEquiv1 dot_S16000x64_S64x64_S16000x64_1_0_0_1_n_n 64 rfl rfl).symm k) = ix2 p k := funext fun a => Fin.ext (by
    match a with
    | ⟨0, _⟩ => exact lhs_dot_0 _ _
    | ⟨1, _⟩ => exact (lhs_dot_1 _ _).trans hk)
  have er : dot_S16000x64_S64x64_S16000x64_1_0_0_1_n_n.rhsIdx (ix2 p q) ((contrEquiv1 dot_S16000x64_S64x64_S16000x64_1_0_0_1_n_n 64 rfl rfl).symm k) = ix2 k q := funext fun a => Fin.ext (by
    match a with
    | ⟨0, _⟩ => exact (rhs_dot_0 _ _).trans hk
    | ⟨1, _⟩ => exact rhs_dot_1 _ _)
  rw [el, er]
  rfl

/-- What point `t` writes back is its block of the product of the region's entry arrays. -/
theorem flushed_eq (c : Dev nD) (t : Fin cfg1.N) :
    (dat1 (F := Ideal) V c).flushed 2 t
      = ((cfg1.win 2).blk t).view.read (Elt Ideal) (Cert.MessagePassing.proj (V c main_arg1) (V c main_arg5)) := by
  show (cfg1.win 2).cut (grid1.coords t) ((dat1 V c).after 2 t) = _
  rw [after1_2]
  unfold out1_2
  rw [View.canon_unit_zero hz]
  simp only [View.ld_unit_zero (S := S16000x64) hz, View.ld_unit_zero (S := S64x64) hz]
  obtain ⟨e0, e1, e2, e3, e4, e5⟩ := idx_facts t
  funext y
  show k1_pay1 (F := Ideal) (iblk1 V c 0 t) (iblk1 V c 1 t) y
    = Cert.MessagePassing.proj (V c main_arg1) (V c main_arg5) (((cfg1.win 2).blk t).view.emb y)
  refine (congrArg (k1_pay1 (F := Ideal) (iblk1 V c 0 t) (iblk1 V c 1 t)) (eq_ix2 y)).trans ?_
  refine (pay_apply (iblk1 V c 0 t) (iblk1 V c 1 t) (y 0) (y 1)).trans ?_
  show _ = Cert.MessagePassing.projAt (V c main_arg1) (V c main_arg5)
    ⟨((((cfg1.win 2).blk t).view.emb y) 0).val, ((((cfg1.win 2).blk t).view.emb y) 0).isLt⟩
    ⟨((((cfg1.win 2).blk t).view.emb y) 1).val, ((((cfg1.win 2).blk t).view.emb y) 1).isLt⟩
  unfold Cert.MessagePassing.projAt
  refine Finset.sum_congr rfl fun k _ => ?_
  refine congrArg₂ (· * ·) ?_ ?_
  · show V c main_arg1 (((cfg1.win 0).blk t).view.emb (ix2 (y 0) k)) = _
    refine congrArg (V c main_arg1) (funext fun a => Fin.ext ?_)
    match a with
    | ⟨0, _⟩ => show win1_0.index t (0 : Fin 2) * 16000 + 1 * (y 0).val = win1_2.index t (0 : Fin 2) * 16000 + 1 * (y 0).val; omega
    | ⟨1, _⟩ => show win1_0.index t (1 : Fin 2) * 64 + 1 * k.val = k.val; omega
  · show V c main_arg5 (((cfg1.win 1).blk t).view.emb (ix2 k (y 1))) = _
    refine congrArg (V c main_arg5) (funext fun a => Fin.ext ?_)
    match a with
    | ⟨0, _⟩ => show win1_1.index t (0 : Fin 2) * 64 + 1 * k.val = k.val; omega
    | ⟨1, _⟩ => show win1_1.index t (1 : Fin 2) * 64 + 1 * (y 1).val = win1_2.index t (1 : Fin 2) * 64 + 1 * (y 1).val; omega

/-- An index of the array is in point `t`'s block iff each coordinate is in the block's range on its axis. -/
theorem mem_blk (t : Fin cfg1.N) (i : S1600000x64.Idx) :
    i ∈ ((cfg1.win 2).blk t).view.set ↔ ∀ a : Fin 2, win1_2.index t a * S16000x64.size a ≤ (i a).val
      ∧ (i a).val < win1_2.index t a * S16000x64.size a + S16000x64.size a := by
  show i ∈ ((View.whole main_v2).slice (win1_2.rect t)).set ↔ _
  rw [View.set_slice_whole, Rect.mem_set_unit]
  exact Iff.rfl

/-- Every index of the array lies in the block of the point its row falls under, and that point writes back. -/
theorem cover (i : S1600000x64.Idx) :
    ∃ t : Fin cfg1.N, (cfg1.win 2).flush t = true ∧ i ∈ ((cfg1.win 2).blk t).view.set := by
  have hi0 : (i 0).val < 1600000 := (i 0).isLt
  have hi1 : (i 1).val < 64 := (i 1).isLt
  have ht : (i 0).val / 16000 < 100 := by omega
  obtain ⟨e0, e1, e2, e3, e4, e5⟩ := idx_facts ⟨(i 0).val / 16000, ht⟩
  have e4' : win1_2.index ⟨(i 0).val / 16000, ht⟩ (0 : Fin 2) = (i 0).val / 16000 := e4
  refine ⟨⟨(i 0).val / 16000, ht⟩, flush1_2 _, ?_⟩
  rw [mem_blk]
  intro a
  match a with
  | ⟨0, _⟩ =>
    show win1_2.index ⟨(i 0).val / 16000, ht⟩ (0 : Fin 2) * 16000 ≤ (i 0).val
      ∧ (i 0).val < win1_2.index ⟨(i 0).val / 16000, ht⟩ (0 : Fin 2) * 16000 + 16000
    omega
  | ⟨1, _⟩ =>
    show win1_2.index ⟨(i 0).val / 16000, ht⟩ (1 : Fin 2) * 64 ≤ (i 1).val
      ∧ (i 1).val < win1_2.index ⟨(i 0).val / 16000, ht⟩ (1 : Fin 2) * 64 + 64
    omega

/-- The array the edge-projection region leaves: every row of the entry contents of its first operand times its second. -/
theorem final (c : Dev nD) :
    (dat1 (F := Ideal) V c).arrAt 2 cfg1.N = Cert.MessagePassing.proj (V c main_arg1) (V c main_arg5) :=
  (dat1 V c).arrAt_eq_of_cover 2 (Cert.MessagePassing.proj (V c main_arg1) (V c main_arg5))
    (fun t _ => flushed_eq V c t) cover

end Cert.KernelIdeal.ProjRegion

end
-- ==== Proof.NodeRegion.lean ====
/- The node region: after its 10 grid points the output array holds, entry by entry, max(x · w + b, 0) of the region's
   entry contents: x the node features, w the 64 × 64 weight, b the 1 × 64 bias row. -/
import proofs.«157868_j17849884082713_1_alg».proof.Proof.Gen.KernelIdeal.Frame
import proofs.«157868_j17849884082713_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.NodeRegion

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The offset of a whole-block access is zero on both axes. -/
theorem hz : (![0, 0] : Fin 2 → Nat) = fun _ => 0 := funext fun a => by fin_cases a <;> rfl

/-- The index maps over the grid: the row-blocked input moves with the output, whose row block is the point's own;
    the weight and the bias row sit at block (0, 0); nothing moves along the columns. -/
theorem idx_facts : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = t.val
    ∧ win0_3.index t (1 : Fin 2) = 0 :=
  (by decide +kernel : ∀ t : Fin grid0.N, _)

/-- The left operand of the contraction is read at the output's row … -/
theorem lhs_dot_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- … and at the contracted place along its columns; -/
theorem lhs_dot_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- the right operand at the contracted place along its rows … -/
theorem rhs_dot_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
/-- … and at the output's column. -/
theorem rhs_dot_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The contraction at place (p, q): row p of the row block against column q of the weight block. -/
theorem dot_apply (x0 : FVec Ideal S5000x64 .bf16) (x1 : FVec Ideal S64x64 .bf16) (p : Fin 5000) (q : Fin 64) :
    FloatOps.matmul dot_S5000x64_S64x64_S5000x64_1_0_0_1_n_n none x0 x1 (constant S5000x64 .f32 0x00000000#32) (ix2 p q)
      = ∑ k : Fin 64, x0 (ix2 p k) * x1 (ix2 k q) := by
  refine (Ideal.matmul_constant_zero_apply dot_S5000x64_S64x64_S5000x64_1_0_0_1_n_n none _ _ _).trans ?_
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact lhs_dot_0 _ _
    | ⟨1, _⟩ => exact (lhs_dot_1 _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (rhs_dot_0 _ _).trans hk
    | ⟨1, _⟩ => exact rhs_dot_1 _ _)
  rw [el, er]

/-- The body's value at place (p, q) of its block: row p of the row block against column q of the weight block, plus
    the bias row at q, clipped below at zero. -/
theorem pay_apply (x0 : Vec Ideal S5000x64 .f32) (x1 : Vec Ideal S64x64 .f32) (x2 : Vec Ideal S1x64 .f32) (p : Fin 5000) (q : Fin 64) :
    k0_pay1 (F := Ideal) x0 x1 x2 (ix2 p q)
      = max ((∑ k : Fin 64, x0 (ix2 p k) * x1 (ix2 k q)) + x2 (ix2 0 q)) (Ideal.ofBits .f32 0x00000000#32) := by
  unfold k0_pay1
  simp only [maximumf_apply, addf_apply, broadcast_apply, shapeCast_self]
  refine congrArg₂ max (congrArg₂ (· + ·) ?_ ?_) rfl
  · exact dot_apply _ _ p q
  · exact broadcastTo_apply x2 broadcasts_S1x64_S5000x64 (ix2 p q) (ix2 0 q) (fun a => by
      match a with
      | ⟨0, _⟩ => rfl
      | ⟨1, _⟩ => rfl)

/-- What point `t` writes back is its block of the node update of the region's entry arrays. -/
theorem flushed_eq (c : Dev nD) (t : Fin cfg0.N) :
    (dat0 (F := Ideal) V c).flushed 3 t
      = ((cfg0.win 3).blk t).view.read (Elt Ideal)
          (Cert.MessagePassing.node (V c main_arg0) (V c main_arg4) (fun j => V c main_v0 (ix2 0 j))) := by
  show (cfg0.win 3).cut (grid0.coords t) ((dat0 V c).after 3 t) = _
  rw [after0_3]
  unfold out0_3
  rw [View.canon_unit_zero hz]
  simp only [View.ld_unit_zero (S := S5000x64) hz, View.ld_unit_zero (S := S64x64) hz, View.ld_unit_zero (S := S1x64) hz]
  obtain ⟨e0, e1, e2, e3, e4, e5, e6, e7⟩ := idx_facts t
  funext y
  show k0_pay1 (F := Ideal) (iblk0 V c 0 t) (iblk0 V c 1 t) (iblk0 V c 2 t) y
    = Cert.MessagePassing.node (V c main_arg0) (V c main_arg4) (fun j => V c main_v0 (ix2 0 j)) (((cfg0.win 3).blk t).view.emb y)
  refine (congrArg (k0_pay1 (F := Ideal) (iblk0 V c 0 t) (iblk0 V c 1 t) (iblk0 V c 2 t)) (eq_ix2 y)).trans ?_
  refine (pay_apply (iblk0 V c 0 t) (iblk0 V c 1 t) (iblk0 V c 2 t) (y 0) (y 1)).trans ?_
  show _ = Cert.MessagePassing.nodeAt (V c main_arg0) (V c main_arg4) (fun j => V c main_v0 (ix2 0 j))
    ⟨((((cfg0.win 3).blk t).view.emb y) 0).val, ((((cfg0.win 3).blk t).view.emb y) 0).isLt⟩
    ⟨((((cfg0.win 3).blk t).view.emb y) 1).val, ((((cfg0.win 3).blk t).view.emb y) 1).isLt⟩
  unfold Cert.MessagePassing.nodeAt Cert.MessagePassing.projAt
  refine congrArg₂ max (congrArg₂ (· + ·) (Finset.sum_congr rfl fun k _ => congrArg₂ (· * ·) ?_ ?_) ?_) rfl
  · show V c main_arg0 (((cfg0.win 0).blk t).view.emb (ix2 (y 0) k)) = _
    refine congrArg (V c main_arg0) (funext fun a => Fin.ext ?_)
    match a with
    | ⟨0, _⟩ => show win0_0.index t (0 : Fin 2) * 5000 + 1 * (y 0).val = win0_3.index t (0 : Fin 2) * 5000 + 1 * (y 0).val; omega
    | ⟨1, _⟩ => show win0_0.index t (1 : Fin 2) * 64 + 1 * k.val = k.val; omega
  · show V c main_arg4 (((cfg0.win 1).blk t).view.emb (ix2 k (y 1))) = _
    refine congrArg (V c main_arg4) (funext fun a => Fin.ext ?_)
    match a with
    | ⟨0, _⟩ => show win0_1.index t (0 : Fin 2) * 64 + 1 * k.val = k.val; omega
    | ⟨1, _⟩ => show win0_1.index t (1 : Fin 2) * 64 + 1 * (y 1).val = win0_3.index t (1 : Fin 2) * 64 + 1 * (y 1).val; omega
  · show V c main_v0 (((cfg0.win 2).blk t).view.emb (ix2 0 (y 1))) = _
    refine congrArg (V c main_v0) (funext fun a => Fin.ext ?_)
    match a with
    | ⟨0, _⟩ => show win0_2.index t (0 : Fin 2) * 1 + 1 * 0 = 0; omega
    | ⟨1, _⟩ => show win0_2.index t (1 : Fin 2) * 64 + 1 * (y 1).val = win0_3.index t (1 : Fin 2) * 64 + 1 * (y 1).val; omega

/-- An index of the array is in point `t`'s block iff each coordinate is in the block's range on its axis. -/
theorem mem_blk (t : Fin cfg0.N) (i : S50000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v1).slice (win0_3.rect t)).set ↔ _
  rw [View.set_slice_whole, Rect.mem_set_unit]
  exact Iff.rfl

/-- Every index of the array lies in the block of the point its row falls under, and that point writes back. -/
theorem cover (i : S50000x64.Idx) :
    ∃ t : Fin cfg0.N, (cfg0.win 3).flush t = true ∧ i ∈ ((cfg0.win 3).blk t).view.set := by
  have hi0 : (i 0).val < 50000 := (i 0).isLt
  have hi1 : (i 1).val < 64 := (i 1).isLt
  have ht : (i 0).val / 5000 < 10 := by omega
  obtain ⟨e0, e1, e2, e3, e4, e5, e6, e7⟩ := idx_facts ⟨(i 0).val / 5000, ht⟩
  have e6' : win0_3.index ⟨(i 0).val / 5000, ht⟩ (0 : Fin 2) = (i 0).val / 5000 := e6
  refine ⟨⟨(i 0).val / 5000, ht⟩, flush0_3 _, ?_⟩
  rw [mem_blk]
  intro a
  match a with
  | ⟨0, _⟩ =>
    show win0_3.index ⟨(i 0).val / 5000, ht⟩ (0 : Fin 2) * 5000 ≤ (i 0).val
      ∧ (i 0).val < win0_3.index ⟨(i 0).val / 5000, ht⟩ (0 : Fin 2) * 5000 + 5000
    omega
  | ⟨1, _⟩ =>
    show win0_3.index ⟨(i 0).val / 5000, ht⟩ (1 : Fin 2) * 64 ≤ (i 1).val
      ∧ (i 1).val < win0_3.index ⟨(i 0).val / 5000, ht⟩ (1 : Fin 2) * 64 + 64
    omega

/-- The array the node region leaves. -/
theorem final (c : Dev nD) :
    (dat0 (F := Ideal) V c).arrAt 3 cfg0.N
      = Cert.MessagePassing.node (V c main_arg0) (V c main_arg4) (fun j => V c main_v0 (ix2 0 j)) :=
  (dat0 V c).arrAt_eq_of_cover 3
    (Cert.MessagePassing.node (V c main_arg0) (V c main_arg4) (fun j => V c main_v0 (ix2 0 j)))
    (fun t _ => flushed_eq V c t) cover

end Cert.KernelIdeal.NodeRegion

end
-- ==== Proof.DenseRegion.lean ====
/- The dense edge region: after its 200 grid points the output array holds the edge update of the region's entry
   contents, entry by entry. -/
import proofs.«157868_j17849884082713_1_alg».proof.Proof.Gen.KernelIdeal.Frame
import proofs.«157868_j17849884082713_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.DenseRegion

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offsets of a whole-block access, as a constant function. -/
theorem zero_offsets : (![0, 0] : Fin 2 → Nat) = fun _ => 0 := funext fun a => by fin_cases a <;> rfl

/-! ## The contraction's index maps, axis by axis -/

theorem lhs_dense_0 (i : S8000x64.Idx) (q : dot_S8000x128_S128x64_S8000x64_1_0_0_1_n_n.contr.Idx) :
    (dot_S8000x128_S128x64_S8000x64_1_0_0_1_n_n.lhsIdx i q 0).val = (i 0).val := by
  unfold DotDims.lhsIdx
  rw [dif_neg (show ¬(0 : Fin S8000x128.rank) ∈ dot_S8000x128_S128x64_S8000x64_1_0_0_1_n_n.lhsBatch by decide), dif_pos (show (0 : Fin S8000x128.rank) ∈ dot_S8000x128_S128x64_S8000x64_1_0_0_1_n_n.lhsNonContracting by decide)]
  rfl
theorem lhs_dense_1 (i : S8000x64.Idx) (q : dot_S8000x128_S128x64_S8000x64_1_0_0_1_n_n.contr.Idx) :
    (dot_S8000x128_S128x64_S8000x64_1_0_0_1_n_n.lhsIdx i q 1).val = (q ⟨0, by decide⟩).val :=
  dot_S8000x128_S128x64_S8000x64_1_0_0_1_n_n.lhsIdx_val_of_single rfl i q
theorem rhs_dense_0 (i : S8000x64.Idx) (q : dot_S8000x128_S128x64_S8000x64_1_0_0_1_n_n.contr.Idx) :
    (dot_S8000x128_S128x64_S8000x64_1_0_0_1_n_n.rhsIdx i q 0).val = (q ⟨0, by decide⟩).val :=
  dot_S8000x128_S128x64_S8000x64_1_0_0_1_n_n.rhsIdx_val_of_single rfl i q
theorem rhs_dense_1 (i : S8000x64.Idx) (q : dot_S8000x128_S128x64_S8000x64_1_0_0_1_n_n.contr.Idx) :
    (dot_S8000x128_S128x64_S8000x64_1_0_0_1_n_n.rhsIdx i q 1).val = (i 1).val := by
  unfold DotDims.rhsIdx
  rw [dif_neg (show ¬(1 : Fin S128x64.rank) ∈ dot_S8000x128_S128x64_S8000x64_1_0_0_1_n_n.rhsBatch by decide), dif_pos (show (1 : Fin S128x64.rank) ∈ dot_S8000x128_S128x64_S8000x64_1_0_0_1_n_n.rhsNonContracting by decide)]
  rfl

/-- The product into a zero accumulator, entry (p, q): the sum over the 128 contracted places. -/
theorem matmul_at (lhs : FVec Ideal S8000x128 .bf16) (rhs : FVec Ideal S128x64 .bf16) (p : Fin 8000) (q : Fin 64) :
    matmul dot_S8000x128_S128x64_S8000x64_1_0_0_1_n_n none lhs rhs (constant (F := Ideal) S8000x64 .f32 0x00000000#32) (ix2 p q)
      = ∑ k : Fin 128, lhs (ix2 p k) * rhs (ix2 k q) := by
  refine (Ideal.matmul_constant_zero_apply dot_S8000x128_S128x64_S8000x64_1_0_0_1_n_n none lhs rhs (ix2 p q)).trans ?_
  rw [← Equiv.sum_comp (ValueIdx.contrEquiv1 dot_S8000x128_S128x64_S8000x64_1_0_0_1_n_n 128 rfl rfl).symm]
  refine Finset.sum_congr rfl fun k _ => ?_
  have hk := ValueIdx.contrEquiv1_symm_val dot_S8000x128_S128x64_S8000x64_1_0_0_1_n_n 128 rfl rfl k
  have el : dot_S8000x128_S128x64_S8000x64_1_0_0_1_n_n.lhsIdx (ix2 p q) ((ValueIdx.contrEquiv1 dot_S8000x128_S128x64_S8000x64_1_0_0_1_n_n 128 rfl rfl).symm k) = ix2 p k := funext fun a => Fin.ext (by
    match a with
    | ⟨0, _⟩ => exact lhs_dense_0 _ _
    | ⟨1, _⟩ => exact (lhs_dense_1 _ _).trans hk)
  have er : dot_S8000x128_S128x64_S8000x64_1_0_0_1_n_n.rhsIdx (ix2 p q) ((ValueIdx.contrEquiv1 dot_S8000x128_S128x64_S8000x64_1_0_0_1_n_n 128 rfl rfl).symm k) = ix2 k q := funext fun a => Fin.ext (by
    match a with
    | ⟨0, _⟩ => exact (rhs_dense_0 _ _).trans hk
    | ⟨1, _⟩ => exact rhs_dense_1 _ _)
  rw [el, er]

/-- The two halves joined along the columns, read at column k: the first half below 64, the second from 64 on. -/
theorem cat_at (u v : FVec Ideal S8000x64 .f32) (hc : Shape.Concatenates [S8000x64, S8000x64] S8000x128 1)
    (p : Fin 8000) (k : Fin 128) :
    concatenate S8000x128 1 [⟨S8000x64, u⟩, ⟨S8000x64, v⟩] hc (ix2 p k)
      = if h : k.val < 64 then u (ix2 p ⟨k.val, h⟩) else v (ix2 p ⟨k.val - 64, by omega⟩) := by
  by_cases h : k.val < 64
  · rw [dif_pos h]
    refine concatenate_pair_apply_left (t := S8000x128) (s₁ := S8000x64) (s₂ := S8000x64) (1 : Fin 2) u v hc (ix2 p k) rfl
      (ix2 p ⟨k.val, h⟩) ?_
    intro b
    match b with
    | ⟨0, _⟩ => rfl
    | ⟨1, _⟩ => rfl
  · rw [dif_neg h]
    refine concatenate_pair_apply_right (t := S8000x128) (s₁ := S8000x64) (s₂ := S8000x64) (1 : Fin 2) u v hc (ix2 p k) rfl rfl
      (ix2 p ⟨k.val - 64, by omega⟩) ?_ ?_
    · intro b hb
      match b, hb with
      | ⟨0, _⟩, _ => rfl
      | ⟨1, _⟩, hb => exact absurd rfl hb
    · show (k.val - 64) + 64 = k.val
      omega

/-- A 1 × 64 bias row spread over the 8000 rows, read at (p, q): the row's entry q. -/
theorem bias_at (x : FVec Ideal S1x64 .f32) (h2 : S1x64.Broadcasts S8000x64) (p : Fin 8000) (q : Fin 64) :
    broadcastTo S8000x64 x h2 (ix2 p q) = x (ix2 0 q) := by
  refine broadcastTo_apply x h2 (ix2 p q) (ix2 0 q) ?_
  intro a
  match a with
  | ⟨0, _⟩ => rfl
  | ⟨1, _⟩ => rfl

/-- The body's stored value at entry (p, q) of the block, from its seven loaded blocks. -/
theorem payload_at (x0 x1 x2 x3 : Vec Ideal S8000x64 .f32) (x4 : Vec Ideal S128x64 .f32) (x5 x6 : Vec Ideal S1x64 .f32)
    (p : Fin 8000) (q : Fin 64) :
    k2_pay1 (F := Ideal) x0 x1 x2 x3 x4 x5 x6 (ix2 p q)
      = max ((∑ k : Fin 128, (if h : k.val < 64 then x0 (ix2 p ⟨k.val, h⟩) + x1 (ix2 p ⟨k.val, h⟩)
                else (x2 (ix2 p ⟨k.val - 64, by omega⟩) + x3 (ix2 p ⟨k.val - 64, by omega⟩)) * Ideal.ofBits .f32 0x3F000000#32)
                  * x4 (ix2 k q))
              + x5 (ix2 0 q) + x6 (ix2 0 q)) (Ideal.ofBits .f32 0x00000000#32) := by
  unfold k2_pay1
  simp only [shapeCast_self]
  simp only [maximumf_apply, addf_apply, broadcast_apply]
  rw [matmul_at, bias_at, bias_at]
  refine congrArg₂ max (congrArg₂ (· + ·) (congrArg₂ (· + ·) (Finset.sum_congr rfl fun k _ => ?_) rfl) rfl) rfl
  rw [truncf_apply, truncf_apply, cat_at]
  by_cases h : k.val < 64
  · rw [dif_pos h, dif_pos h]
    simp only [addf_apply, shapeCast_self]
  · rw [dif_neg h, dif_neg h]
    simp only [mulf_apply, addf_apply, broadcast_apply, shapeCast_self]
    rfl

/-! ## The windows' blocks over the grid -/

/-- The printed index maps, decided over the 200 grid points: the four row-blocked inputs move with the output, whose
    block on the rows is the point's own; the weight and the two bias rows stay at block (0, 0). -/
theorem index_facts : ∀ t : Fin cfg2.N,
    win2_0.index t (0 : Fin 2) = win2_7.index t (0 : Fin 2) ∧ win2_0.index t (1 : Fin 2) = 0
    ∧ win2_1.index t (0 : Fin 2) = win2_7.index t (0 : Fin 2) ∧ win2_1.index t (1 : Fin 2) = 0
    ∧ win2_2.index t (0 : Fin 2) = win2_7.index t (0 : Fin 2) ∧ win2_2.index t (1 : Fin 2) = 0
    ∧ win2_3.index t (0 : Fin 2) = win2_7.index t (0 : Fin 2) ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (0 : Fin 2) < 200 ∧ win2_7.index t (1 : Fin 2) = 0 :=
  (by decide +kernel : ∀ t : Fin grid2.N, _)

/-- Entry (p, q) of the first input's block at point t is row 8000 t + p of its array. -/
theorem row_block_0 (c : Dev nD) (t : Fin cfg2.N) (p : Fin 8000) (q : Fin 64) (r : Fin 1600000)
    (hr : r.val = t.val * 8000 + p.val) :
    iblk2 V c 0 t (ix2 p q : S8000x64.Idx) = V c main_v2 (ix2 r q : S1600000x64.Idx) := by
  obtain ⟨a0, a1, b0, b1, c0, c1, d0, d1, w0, w1, f0, f1, g0, g1, o0, o0', o1⟩ := index_facts t
  unfold iblk2
  show V c main_v2 (((cfg2.win 0).blk t).view.emb (ix2 p q : S8000x64.Idx)) = V c main_v2 (ix2 r q : S1600000x64.Idx)
  refine congrArg _ (funext fun a => Fin.ext ?_)
  match a with
  | ⟨0, _⟩ => show win2_0.index t (0 : Fin 2) * 8000 + 1 * p.val = r.val; omega
  | ⟨1, _⟩ => show win2_0.index t (1 : Fin 2) * 64 + 1 * q.val = q.val; omega

/-- Entry (p, q) of the second input's block at point t is row 8000 t + p of its array. -/
theorem row_block_1 (c : Dev nD) (t : Fin cfg2.N) (p : Fin 8000) (q : Fin 64) (r : Fin 1600000)
    (hr : r.val = t.val * 8000 + p.val) :
    iblk2 V c 1 t (ix2 p q : S8000x64.Idx) = V c main_v20 (ix2 r q : S1600000x64.Idx) := by
  obtain ⟨a0, a1, b0, b1, c0, c1, d0, d1, w0, w1, f0, f1, g0, g1, o0, o0', o1⟩ := index_facts t
  unfold iblk2
  show V c main_v20 (((cfg2.win 1).blk t).view.emb (ix2 p q : S8000x64.Idx)) = V c main_v20 (ix2 r q : S1600000x64.Idx)
  refine congrArg _ (funext fun a => Fin.ext ?_)
  match a with
  | ⟨0, _⟩ => show win2_1.index t (0 : Fin 2) * 8000 + 1 * p.val = r.val; omega
  | ⟨1, _⟩ => show win2_1.index t (1 : Fin 2) * 64 + 1 * q.val = q.val; omega

/-- Entry (p, q) of the third input's block at point t is row 8000 t + p of its array. -/
theorem row_block_2 (c : Dev nD) (t : Fin cfg2.N) (p : Fin 8000) (q : Fin 64) (r : Fin 1600000)
    (hr : r.val = t.val * 8000 + p.val) :
    iblk2 V c 2 t (ix2 p q : S8000x64.Idx) = V c main_v27 (ix2 r q : S1600000x64.Idx) := by
  obtain ⟨a0, a1, b0, b1, c0, c1, d0, d1, w0, w1, f0, f1, g0, g1, o0, o0', o1⟩ := index_facts t
  unfold iblk2
  show V c main_v27 (((cfg2.win 2).blk t).view.emb (ix2 p q : S8000x64.Idx)) = V c main_v27 (ix2 r q : S1600000x64.Idx)
  refine congrArg _ (funext fun a => Fin.ext ?_)
  match a with
  | ⟨0, _⟩ => show win2_2.index t (0 : Fin 2) * 8000 + 1 * p.val = r.val; omega
  | ⟨1, _⟩ => show win2_2.index t (1 : Fin 2) * 64 + 1 * q.val = q.val; omega

/-- Entry (p, q) of the fourth input's block at point t is row 8000 t + p of its array. -/
theorem row_block_3 (c : Dev nD) (t : Fin cfg2.N) (p : Fin 8000) (q : Fin 64) (r : Fin 1600000)
    (hr : r.val = t.val * 8000 + p.val) :
    iblk2 V c 3 t (ix2 p q : S8000x64.Idx) = V c main_v34 (ix2 r q : S1600000x64.Idx) := by
  obtain ⟨a0, a1, b0, b1, c0, c1, d0, d1, w0, w1, f0, f1, g0, g1, o0, o0', o1⟩ := index_facts t
  unfold iblk2
  show V c main_v34 (((cfg2.win 3).blk t).view.emb (ix2 p q : S8000x64.Idx)) = V c main_v34 (ix2 r q : S1600000x64.Idx)
  refine congrArg _ (funext fun a => Fin.ext ?_)
  match a with
  | ⟨0, _⟩ => show win2_3.index t (0 : Fin 2) * 8000 + 1 * p.val = r.val; omega
  | ⟨1, _⟩ => show win2_3.index t (1 : Fin 2) * 64 + 1 * q.val = q.val; omega

/-- The weight window's block is the whole 128 × 64 weight at every point. -/
theorem weight_block (c : Dev nD) (t : Fin cfg2.N) (k : Fin 128) (q : Fin 64) :
    iblk2 V c 4 t (ix2 k q : S128x64.Idx) = V c main_arg8 (ix2 k q : S128x64.Idx) := by
  obtain ⟨a0, a1, b0, b1, c0, c1, d0, d1, w0, w1, f0, f1, g0, g1, o0, o0', o1⟩ := index_facts t
  unfold iblk2
  show V c main_arg8 (((cfg2.win 4).blk t).view.emb (ix2 k q : S128x64.Idx)) = V c main_arg8 (ix2 k q : S128x64.Idx)
  refine congrArg _ (funext fun a => Fin.ext ?_)
  match a with
  | ⟨0, _⟩ => show win2_4.index t (0 : Fin 2) * 128 + 1 * k.val = k.val; omega
  | ⟨1, _⟩ => show win2_4.index t (1 : Fin 2) * 64 + 1 * q.val = q.val; omega

/-- The first bias window's block is the whole 1 × 64 row at every point. -/
theorem bias_block_5 (c : Dev nD) (t : Fin cfg2.N) (q : Fin 64) :
    iblk2 V c 5 t (ix2 0 q : S1x64.Idx) = V c main_v35 (ix2 0 q : S1x64.Idx) := by
  obtain ⟨a0, a1, b0, b1, c0, c1, d0, d1, w0, w1, f0, f1, g0, g1, o0, o0', o1⟩ := index_facts t
  unfold iblk2
  show V c main_v35 (((cfg2.win 5).blk t).view.emb (ix2 0 q : S1x64.Idx)) = V c main_v35 (ix2 0 q : S1x64.Idx)
  refine congrArg _ (funext fun a => Fin.ext ?_)
  match a with
  | ⟨0, _⟩ => show win2_5.index t (0 : Fin 2) * 1 + 1 * 0 = 0; omega
  | ⟨1, _⟩ => show win2_5.index t (1 : Fin 2) * 64 + 1 * q.val = q.val; omega

/-- The second bias window's block is the whole 1 × 64 row at every point. -/
theorem bias_block_6 (c : Dev nD) (t : Fin cfg2.N) (q : Fin 64) :
    iblk2 V c 6 t (ix2 0 q : S1x64.Idx) = V c main_v36 (ix2 0 q : S1x64.Idx) := by
  obtain ⟨a0, a1, b0, b1, c0, c1, d0, d1, w0, w1, f0, f1, g0, g1, o0, o0', o1⟩ := index_facts t
  unfold iblk2
  show V c main_v36 (((cfg2.win 6).blk t).view.emb (ix2 0 q : S1x64.Idx)) = V c main_v36 (ix2 0 q : S1x64.Idx)
  refine congrArg _ (funext fun a => Fin.ext ?_)
  match a with
  | ⟨0, _⟩ => show win2_6.index t (0 : Fin 2) * 1 + 1 * 0 = 0; omega
  | ⟨1, _⟩ => show win2_6.index t (1 : Fin 2) * 64 + 1 * q.val = q.val; omega

/-! ## What a point writes back -/

/-- The body's stored value at entry (p, q) of point t's block is the edge update at row 8000 t + p, column q, of the
    arrays as the region finds them. -/
theorem block_entry (c : Dev nD) (t : Fin cfg2.N) (p : Fin 8000) (q : Fin 64) (r : Fin 1600000)
    (hr : r.val = t.val * 8000 + p.val) :
    k2_pay1 (F := Ideal) (iblk2 V c 0 t) (iblk2 V c 1 t) (iblk2 V c 2 t) (iblk2 V c 3 t) (iblk2 V c 4 t) (iblk2 V c 5 t)
        (iblk2 V c 6 t) (ix2 p q)
      = Cert.MessagePassing.denseAt (V c main_v2) (V c main_v20) (V c main_v27) (V c main_v34) (V c main_arg8)
          (fun j => V c main_v35 (ix2 0 j)) (fun j => V c main_v36 (ix2 0 j)) r q := by
  refine (payload_at _ _ _ _ _ _ _ p q).trans ?_
  unfold Cert.MessagePassing.denseAt
  refine congrArg₂ max (congrArg₂ (· + ·) (congrArg₂ (· + ·) (Finset.sum_congr rfl fun k _ => ?_) ?_) ?_) rfl
  · refine congrArg₂ (· * ·) ?_ (weight_block V c t k q)
    unfold Cert.MessagePassing.catAt
    by_cases h : k.val < 64
    · rw [dif_pos h, dif_pos h, row_block_0 V c t p _ r hr, row_block_1 V c t p _ r hr]
    · rw [dif_neg h, dif_neg h, row_block_2 V c t p _ r hr, row_block_3 V c t p _ r hr]
  · exact bias_block_5 V c t q
  · exact bias_block_6 V c t q

/-- Where entry (p, q) of point t's output block sits in the output array: row 8000 t + p, column q. -/
theorem out_block_coords (t : Fin cfg2.N) (p : Fin 8000) (q : Fin 64) :
    ∃ r : Fin 1600000, r.val = t.val * 8000 + p.val
      ∧ (((cfg2.win 7).blk t).view.emb (ix2 p q : S8000x64.Idx) : S1600000x64.Idx) = ix2 r q := by
  obtain ⟨a0, a1, b0, b1, c0, c1, d0, d1, w0, w1, f0, f1, g0, g1, o0, o0', o1⟩ := index_facts t
  refine ⟨⟨t.val * 8000 + p.val, by omega⟩, rfl, ?_⟩
  funext a
  apply Fin.ext
  match a with
  | ⟨0, _⟩ => show win2_7.index t (0 : Fin 2) * 8000 + 1 * p.val = t.val * 8000 + p.val; omega
  | ⟨1, _⟩ => show win2_7.index t (1 : Fin 2) * 64 + 1 * q.val = q.val; omega

/-- WHAT POINT t WRITES BACK is block t of the edge update of the arrays as the region finds them. -/
theorem flushed_eq (c : Dev nD) (t : Fin cfg2.N) :
    (dat2 (F := Ideal) V c).flushed 7 t = ((cfg2.win 7).blk t).view.read (Elt Ideal)
        (Cert.MessagePassing.dense (V c main_v2) (V c main_v20) (V c main_v27) (V c main_v34) (V c main_arg8)
          (fun j => V c main_v35 (ix2 0 j)) (fun j => V c main_v36 (ix2 0 j))) := by
  show (cfg2.win 7).cut (grid2.coords t) ((dat2 (F := Ideal) V c).after 7 t) = _
  rw [after2_7]
  unfold out2_7
  rw [View.canon_unit_zero zero_offsets]
  simp only [View.ld_unit_zero (S := S8000x64) zero_offsets, View.ld_unit_zero (S := S128x64) zero_offsets,
    View.ld_unit_zero (S := S1x64) zero_offsets]
  funext y
  obtain ⟨p, q, rfl⟩ : ∃ (p : Fin 8000) (q : Fin 64), y = ix2 p q := ⟨y 0, y 1, eq_ix2 y⟩
  obtain ⟨r, hr, hE⟩ := out_block_coords t p q
  refine (block_entry V c t p q r hr).trans ?_
  show Cert.MessagePassing.dense (V c main_v2) (V c main_v20) (V c main_v27) (V c main_v34) (V c main_arg8)
          (fun j => V c main_v35 (ix2 0 j)) (fun j => V c main_v36 (ix2 0 j)) (ix2 r q)
      = Cert.MessagePassing.dense (V c main_v2) (V c main_v20) (V c main_v27) (V c main_v34) (V c main_arg8)
          (fun j => V c main_v35 (ix2 0 j)) (fun j => V c main_v36 (ix2 0 j)) (((cfg2.win 7).blk t).view.emb (ix2 p q : S8000x64.Idx))
  rw [hE]

/-! ## The array after the grid -/

/-- An index of the output array is in point t's block iff each coordinate is in the block's range on its axis. -/
theorem mem_blk (t : Fin cfg2.N) (i : S1600000x64.Idx) :
    i ∈ ((cfg2.win 7).blk t).view.set ↔ ∀ a : Fin 2, win2_7.index t a * S8000x64.size a ≤ (i a).val
      ∧ (i a).val < win2_7.index t a * S8000x64.size a + S8000x64.size a := by
  show i ∈ ((View.whole main_v37).slice (win2_7.rect t)).set ↔ _
  rw [View.set_slice_whole, Rect.mem_set_unit]
  exact Iff.rfl

/-- Every index of the output array is in the block of the point its row falls in, row / 8000. -/
theorem cover (i : S1600000x64.Idx) :
    ∃ t : Fin cfg2.N, (cfg2.win 7).flush t = true ∧ i ∈ ((cfg2.win 7).blk t).view.set := by
  have hi0 : (i 0).val < 1600000 := (i 0).isLt
  have hi1 : (i 1).val < 64 := (i 1).isLt
  have hN : (i 0).val / 8000 < cfg2.N := by show (i 0).val / 8000 < 200; omega
  refine ⟨⟨(i 0).val / 8000, hN⟩, flush2_7 _, ?_⟩
  rw [mem_blk]
  obtain ⟨a0, a1, b0, b1, c0, c1, d0, d1, w0, w1, f0, f1, g0, g1, o0, o0', o1⟩ := index_facts ⟨(i 0).val / 8000, hN⟩
  have o0'' : win2_7.index ⟨(i 0).val / 8000, hN⟩ (0 : Fin 2) = (i 0).val / 8000 := o0
  intro a
  match a with
  | ⟨0, _⟩ =>
    show win2_7.index ⟨(i 0).val / 8000, hN⟩ (0 : Fin 2) * 8000 ≤ (i 0).val
      ∧ (i 0).val < win2_7.index ⟨(i 0).val / 8000, hN⟩ (0 : Fin 2) * 8000 + 8000
    omega
  | ⟨1, _⟩ =>
    show win2_7.index ⟨(i 0).val / 8000, hN⟩ (1 : Fin 2) * 64 ≤ (i 1).val
      ∧ (i 1).val < win2_7.index ⟨(i 0).val / 8000, hN⟩ (1 : Fin 2) * 64 + 64
    omega

/-- The array the dense edge region leaves. -/
theorem final (c : Dev nD) :
    (dat2 (F := Ideal) V c).arrAt 7 cfg2.N
      = Cert.MessagePassing.dense (V c main_v2) (V c main_v20) (V c main_v27) (V c main_v34) (V c main_arg8)
          (fun j => V c main_v35 (ix2 0 j)) (fun j => V c main_v36 (ix2 0 j)) := by
  exact (dat2 (F := Ideal) V c).arrAt_eq_of_cover 7 _ (fun t _ => flushed_eq V c t) cover

end Cert.KernelIdeal.DenseRegion

end
-- ==== Proof.RefRead.lean ====
/- The reference's three dense stages read at an index: each is the specification's function of its operands. -/
import proofs.«157868_j17849884082713_1_alg».proof.Proof.Gen.ReferenceIdeal.Read
import proofs.«157868_j17849884082713_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefRead

open Cert.ReferenceIdeal Cert.ReferenceIdeal.Gen Cert.ReferenceIdeal.Read Idealize.ShloMosaic Idealize.ShloMosaic.TcCoe Idealize.SL.Sem Idealize.ShloMosaic.ValueIdx

/-- The reference's edge update as a function of the four edge-row arrays it joins, the dense weight and the two biases
    (the reference's own operations, from the concatenation on). -/
def edgeStage (a b c d : FVec Ideal S1600000x64 .f32) (w : FVec Ideal S128x64 .f32) (x9 x7 : FVec Ideal S64 .f32) : FVec Ideal S1600000x64 .f32 :=
  maximumf (addf (addf (Host.dotGeneral (F := Ideal) dot_S1600000x128_S128x64_S1600000x64_1_0_0_1_n_n none
      (concatenate S1600000x128 1 [⟨S1600000x64, addf a b⟩, ⟨S1600000x64, mulf (addf c d) (broadcastInDim S1600000x64 ![] bcast_S_S1600000x64 (constant (F := Ideal) S_ .f32 0x3F000000#32))⟩] concatenates_S1600000x64_S1600000x64_S1600000x128_d1) w)
      (broadcastInDim S1600000x64 ![0, 1] bcast_S1x64_S1600000x64_0_1 (broadcastInDim S1x64 ![1] bcast_S64_S1x64_1 x9)))
      (broadcastInDim S1600000x64 ![0, 1] bcast_S1x64_S1600000x64_0_1 (broadcastInDim S1x64 ![1] bcast_S64_S1x64_1 x7)))
    (broadcastInDim S1600000x64 ![] bcast_S_S1600000x64 (constant (F := Ideal) S_ .f32 0x00000000#32))

/-- The left index of the edge rows' 64-contraction is the row at column `k`. -/
theorem lidx_main_v1_eq (i : S1600000x64.Idx) (k : Fin 64) :
    lidx_main_v1 i k = ix2 ⟨(i 0).val, (i 0).isLt⟩ k :=
  funext fun a => by match a with | ⟨0, _⟩ => rfl | ⟨1, _⟩ => rfl

/-- The right index of the edge rows' 64-contraction is the weight's row `k` at the result's column. -/
theorem ridx_main_v1_eq (i : S1600000x64.Idx) (k : Fin 64) :
    ridx_main_v1 i k = ix2 k ⟨(i 1).val, (i 1).isLt⟩ :=
  funext fun a => by match a with | ⟨0, _⟩ => rfl | ⟨1, _⟩ => rfl

/-- The left index of the node rows' 64-contraction is the row at column `k`. -/
theorem lidx_main_v0_eq (i : S50000x64.Idx) (k : Fin 64) :
    lidx_main_v0 i k = ix2 ⟨(i 0).val, (i 0).isLt⟩ k :=
  funext fun a => by match a with | ⟨0, _⟩ => rfl | ⟨1, _⟩ => rfl

/-- The right index of the node rows' 64-contraction is the weight's row `k` at the result's column. -/
theorem ridx_main_v0_eq (i : S50000x64.Idx) (k : Fin 64) :
    ridx_main_v0 i k = ix2 k ⟨(i 1).val, (i 1).isLt⟩ :=
  funext fun a => by match a with | ⟨0, _⟩ => rfl | ⟨1, _⟩ => rfl

/-- The node bias, broadcast along the rows in two steps, is read at the result's column. -/
theorem idx_bias_node_eq (i : S50000x64.Idx) :
    idx_main_v13 (idx_main_v14 i) = ix1 ⟨(i 1).val, (i 1).isLt⟩ :=
  funext fun a => by match a with | ⟨0, _⟩ => rfl

/-- An edge bias, broadcast along the rows in two steps, is read at the result's column. -/
theorem edge_bias_apply (x : FVec Ideal S64 .f32) (i : S1600000x64.Idx) :
    broadcastInDim S1600000x64 ![0, 1] bcast_S1x64_S1600000x64_0_1 (broadcastInDim S1x64 ![1] bcast_S64_S1x64_1 x) i
      = x (ix1 ⟨(i 1).val, (i 1).isLt⟩) := by
  refine (val_main_v45_apply (F := Ideal) x i).trans ((val_main_v44_apply (F := Ideal) x _).trans (congrArg x ?_))
  exact funext fun a => by match a with | ⟨0, _⟩ => rfl

/-- The clipping level, a scalar zero word broadcast to every entry, reads as that word's value. -/
theorem edge_zero_apply (i : S1600000x64.Idx) :
    broadcastInDim S1600000x64 ![] bcast_S_S1600000x64 (constant (F := Ideal) S_ .f32 0x00000000#32) i
      = Ideal.ofBits .f32 0x00000000#32 :=
  (val_main_call1_v0_apply (F := Ideal) i).trans (val_main_call1_cst_apply (F := Ideal) _)

/-- The halving factor, a scalar word broadcast to every entry, reads as that word's value. -/
theorem edge_half_apply (i : S1600000x64.Idx) :
    broadcastInDim S1600000x64 ![] bcast_S_S1600000x64 (constant (F := Ideal) S_ .f32 0x3F000000#32) i
      = Ideal.ofBits .f32 0x3F000000#32 :=
  (val_main_v40_apply (F := Ideal) i).trans (val_main_cst_8_apply (F := Ideal) _)

/-- The 128-contraction of any joined array with the dense weight, entry by entry: the sum over the joined place. -/
theorem dot128_apply (y : FVec Ideal S1600000x128 .f32) (w : FVec Ideal S128x64 .f32) (i : S1600000x64.Idx) :
    Host.dotGeneral (F := Ideal) dot_S1600000x128_S128x64_S1600000x64_1_0_0_1_n_n none y w i
      = ∑ k : Fin 128, y (ix2 ⟨(i 0).val, (i 0).isLt⟩ k) * w (ix2 k ⟨(i 1).val, (i 1).isLt⟩) := by
  simp only [Host.dotGeneral]
  rw [Ideal.dotGeneral_apply, ← Equiv.sum_comp (ValueIdx.contrEquiv1 dot_S1600000x128_S128x64_S1600000x64_1_0_0_1_n_n 128 rfl rfl).symm]
  refine Finset.sum_congr rfl fun k _ => ?_
  have hk := ValueIdx.contrEquiv1_symm_val dot_S1600000x128_S128x64_S1600000x64_1_0_0_1_n_n 128 rfl rfl k
  have el : dot_S1600000x128_S128x64_S1600000x64_1_0_0_1_n_n.lhsIdx i ((ValueIdx.contrEquiv1 dot_S1600000x128_S128x64_S1600000x64_1_0_0_1_n_n 128 rfl rfl).symm k) = ix2 ⟨(i 0).val, (i 0).isLt⟩ k :=
    funext fun a => Fin.ext (by
      match a with
      | ⟨0, _⟩ => exact lhs_main_v43_0 _ _
      | ⟨1, _⟩ => exact (lhs_main_v43_1 _ _).trans hk)
  have er : dot_S1600000x128_S128x64_S1600000x64_1_0_0_1_n_n.rhsIdx i ((ValueIdx.contrEquiv1 dot_S1600000x128_S128x64_S1600000x64_1_0_0_1_n_n 128 rfl rfl).symm k) = ix2 k ⟨(i 1).val, (i 1).isLt⟩ :=
    funext fun a => Fin.ext (by
      match a with
      | ⟨0, _⟩ => exact (rhs_main_v43_0 _ _).trans hk
      | ⟨1, _⟩ => exact rhs_main_v43_1 _ _)
  rw [el, er]
  rfl

/-- Two arrays joined along the 64 columns, at row `r` and a place `k` among the first 64: the first array there. -/
theorem cat_left (u v : FVec Ideal S1600000x64 .f32) (r : Fin 1600000) (k : Fin 128) (h : k.val < 64) :
    concatenate S1600000x128 1 [⟨S1600000x64, u⟩, ⟨S1600000x64, v⟩] concatenates_S1600000x64_S1600000x64_S1600000x128_d1 (ix2 r k) = u (ix2 r ⟨k.val, h⟩) :=
  concatenate_pair_apply_left (t := S1600000x128) (s₁ := S1600000x64) (s₂ := S1600000x64) 1 u v concatenates_S1600000x64_S1600000x64_S1600000x128_d1 (ix2 r k) rfl
    (ix2 r ⟨k.val, h⟩) (fun t => by match t with | ⟨0, _⟩ => rfl | ⟨1, _⟩ => rfl)

/-- … and at a place `k` among the last 64: the second array, 64 places back. -/
theorem cat_right (u v : FVec Ideal S1600000x64 .f32) (r : Fin 1600000) (k : Fin 128) (h : ¬ k.val < 64) :
    concatenate S1600000x128 1 [⟨S1600000x64, u⟩, ⟨S1600000x64, v⟩] concatenates_S1600000x64_S1600000x64_S1600000x128_d1 (ix2 r k) = v (ix2 r ⟨k.val - 64, by omega⟩) :=
  concatenate_pair_apply_right (t := S1600000x128) (s₁ := S1600000x64) (s₂ := S1600000x64) 1 u v concatenates_S1600000x64_S1600000x64_S1600000x128_d1 (ix2 r k) rfl rfl
    (ix2 r ⟨k.val - 64, by omega⟩)
    (fun t => by match t with | ⟨0, _⟩ => exact fun _ => rfl | ⟨1, _⟩ => exact fun hne => absurd rfl hne)
    (by show k.val - 64 + 64 = k.val; omega)

/-- With the reference's two pieces, the joined array at row `r`, place `k` is the specification's joined vector. -/
theorem cat_apply (a b c d : FVec Ideal S1600000x64 .f32) (r : Fin 1600000) (k : Fin 128) :
    concatenate S1600000x128 1 [⟨S1600000x64, addf a b⟩, ⟨S1600000x64, mulf (addf c d)
        (broadcastInDim S1600000x64 ![] bcast_S_S1600000x64 (constant (F := Ideal) S_ .f32 0x3F000000#32))⟩]
        concatenates_S1600000x64_S1600000x64_S1600000x128_d1 (ix2 r k)
      = Cert.MessagePassing.catAt a b c d r k := by
  unfold Cert.MessagePassing.catAt
  by_cases h : k.val < 64
  · rw [dif_pos h]
    exact (cat_left _ _ r k h).trans rfl
  · rw [dif_neg h]
    refine (cat_right _ _ r k h).trans ?_
    rw [mulf_apply, addf_apply, edge_half_apply]

/-- The reference's result for the edges is that stage of its own intermediate arrays. -/
theorem val_main_v50_stage (x0 : FVec Ideal S50000x64 .f32) (x1 : FVec Ideal S1600000x64 .f32) (x2 x3 : IVec S1600000 32)
    (x4 x5 : FVec Ideal S64x64 .f32) (x6 x7 : FVec Ideal S64 .f32) (x8 : FVec Ideal S128x64 .f32) (x9 : FVec Ideal S64 .f32) :
    val_main_v50 (F := Ideal) x0 x1 x2 x3 x4 x5 x6 x7 x8 x9
      = edgeStage (val_main_v1 (F := Ideal) x1 x5) (val_main_v23 (F := Ideal) x1 x3 x5) (val_main_v31 (F := Ideal) x0 x2 x4 x6)
          (val_main_v38 (F := Ideal) x0 x3 x4 x6) x8 x9 x7 := by
  unfold val_main_v50 val_main_v49 val_main_v46 val_main_v43 val_main_v42 val_main_v24 val_main_v41 val_main_v39 val_main_v40
    val_main_cst_8 val_main_v45 val_main_v44 val_main_v48 val_main_v47 val_main_call1_v0 val_main_call1_cst edgeStage
  rfl

/-- The reference's edge projection is the specification's product. -/
theorem proj_eq (x1 : FVec Ideal S1600000x64 .f32) (x5 : FVec Ideal S64x64 .f32) :
    val_main_v1 (F := Ideal) x1 x5 = Cert.MessagePassing.proj x1 x5 := by
  funext i
  rw [val_main_v1_apply]
  unfold Cert.MessagePassing.proj Cert.MessagePassing.projAt
  refine Finset.sum_congr rfl fun k _ => ?_
  rw [lidx_main_v1_eq, ridx_main_v1_eq]
  rfl

/-- The reference's node result is the specification's node update. -/
theorem node_eq (x0 : FVec Ideal S50000x64 .f32) (x4 : FVec Ideal S64x64 .f32) (x6 : FVec Ideal S64 .f32) :
    val_main_v16 (F := Ideal) x0 x4 x6 = Cert.MessagePassing.node x0 x4 (fun j => x6 (ix1 j)) := by
  funext i
  rw [val_main_v16_apply, val_main_v15_apply, val_main_v0_apply, val_main_v14_apply, val_main_v13_apply,
    val_main_call0_v0_apply, val_main_call0_cst_apply, idx_bias_node_eq]
  unfold Cert.MessagePassing.node Cert.MessagePassing.nodeAt Cert.MessagePassing.projAt
  rw [Ideal.maximumf_def, Ideal.addf_def, Ideal.ofBits_def]
  congr 2
  refine Finset.sum_congr rfl fun k _ => ?_
  rw [lidx_main_v0_eq, ridx_main_v0_eq]
  rfl

/-- The reference's edge stage is the specification's edge update. -/
theorem edge_eq (a b c d : FVec Ideal S1600000x64 .f32) (w : FVec Ideal S128x64 .f32) (x9 x7 : FVec Ideal S64 .f32) :
    edgeStage a b c d w x9 x7 = Cert.MessagePassing.dense a b c d w (fun j => x9 (ix1 j)) (fun j => x7 (ix1 j)) := by
  funext i
  unfold edgeStage Cert.MessagePassing.dense Cert.MessagePassing.denseAt
  rw [maximumf_apply, addf_apply, addf_apply, edge_bias_apply, edge_bias_apply, edge_zero_apply, dot128_apply]
  congr 3
  exact Finset.sum_congr rfl fun k _ => by rw [cat_apply]

end Cert.ReferenceIdeal.RefRead

end
-- ==== Proof.HostChain.lean ====
/- The host operations between the kernel's regions are the reference's own: at equal operands the kernel's gathered
   arrays are the reference's stages. Both sides are the same operations in the same order (the index wrap, the gather of
   a node table, the scatter-added mean over incoming edges); only the names of the two programs' dimension records
   differ, and those agree field by field. Nothing is evaluated. -/
import proofs.«157868_j17849884082713_1_alg».proof.Proof.HostFns
import proofs.«157868_j17849884082713_1_alg».proof.Proof.Gen.ReferenceIdeal.Read

noncomputable section

namespace Cert.HostChain

open Idealize.ShloMosaic Idealize.ShloMosaic.TcCoe
open Cert.KernelIdeal.HostFns Cert.ReferenceIdeal.Read

/-- The wrapped index column is the reference's, for the source indices. -/
theorem wrap_src (x2 : IVec Cert.ReferenceIdeal.S1600000 32) : wrapIdx x2 = val_main_v30 (F := Ideal) x2 := rfl

/-- … and for the destination indices (the reference computes this column three times; all are this one). -/
theorem wrap_dst (x3 : IVec Cert.ReferenceIdeal.S1600000 32) : wrapIdx x3 = val_main_v37 (F := Ideal) x3 := rfl
theorem wrap_dst' (x3 : IVec Cert.ReferenceIdeal.S1600000 32) : wrapIdx x3 = val_main_v22 (F := Ideal) x3 := rfl

/-- The node rows gathered at the source indices. -/
theorem gather_src (x0 : FVec Ideal Cert.ReferenceIdeal.S50000x64 .f32) (x2 : IVec Cert.ReferenceIdeal.S1600000 32)
    (x4 : FVec Ideal Cert.ReferenceIdeal.S64x64 .f32) (x6 : FVec Ideal Cert.ReferenceIdeal.S64 .f32) :
    rowGather (F := Ideal) (val_main_v16 (F := Ideal) x0 x4 x6) x2 = val_main_v31 (F := Ideal) x0 x2 x4 x6 := rfl

/-- The node rows gathered at the destination indices. -/
theorem gather_dst (x0 : FVec Ideal Cert.ReferenceIdeal.S50000x64 .f32) (x3 : IVec Cert.ReferenceIdeal.S1600000 32)
    (x4 : FVec Ideal Cert.ReferenceIdeal.S64x64 .f32) (x6 : FVec Ideal Cert.ReferenceIdeal.S64 .f32) :
    rowGather (F := Ideal) (val_main_v16 (F := Ideal) x0 x4 x6) x3 = val_main_v38 (F := Ideal) x0 x3 x4 x6 := rfl

/-- The mean of the projected edge rows over each node's incoming edges, gathered at the destination indices. -/
theorem gather_mean (x1 : FVec Ideal Cert.ReferenceIdeal.S1600000x64 .f32) (x3 : IVec Cert.ReferenceIdeal.S1600000 32)
    (x5 : FVec Ideal Cert.ReferenceIdeal.S64x64 .f32) :
    rowGather (F := Ideal) (nbMean (F := Ideal) (val_main_v1 (F := Ideal) x1 x5) x3) x3 = val_main_v23 (F := Ideal) x1 x3 x5 := rfl

end Cert.HostChain

end
-- ==== Proof.KernelValue.lean ====
/- The kernel's program, read: its two results are the reference's two results as functions of the arguments.
   The node result is the node region's output array, the specification's node update of the arguments, which is what
   the reference's node stage computes. The edge result is the dense region's output array: the specification's edge
   update of the projected edge rows (the projection region's array), of three gathers the host computes from the two
   earlier arrays exactly as the reference does, and of the dense weight and the two biases. -/
import proofs.«157868_j17849884082713_1_alg».proof.Proof.RunAt
import proofs.«157868_j17849884082713_1_alg».proof.Proof.FoldRead
import proofs.«157868_j17849884082713_1_alg».proof.Proof.ProjRegion
import proofs.«157868_j17849884082713_1_alg».proof.Proof.NodeRegion
import proofs.«157868_j17849884082713_1_alg».proof.Proof.DenseRegion
import proofs.«157868_j17849884082713_1_alg».proof.Proof.RefRead
import proofs.«157868_j17849884082713_1_alg».proof.Proof.HostChain

set_option maxRecDepth 16384

noncomputable section

namespace Cert.KernelIdeal.Result

open Cert.KernelIdeal Cert.KernelIdeal.Gen Cert.KernelIdeal.HostFns
open Idealize.ShloMosaic Idealize.ShloMosaic.TcCoe Idealize.SL.Sem Idealize.ShloMosaic.ValueIdx
open Cert.ReferenceIdeal.Read (val_main_v1 val_main_v16 val_main_v23 val_main_v31 val_main_v38 val_main_v50)

variable (m : (ℓ : Loc nD τ sig) → Buf (Elt Ideal) ℓ) (ρ : Dev nD → PrngReg)

/-- The node region's output array is the reference's node stage of the arguments. -/
theorem node_array (c : Dev nD) :
    (dat0 (V1 m ρ) c).arrAt 3 cfg0.N
      = val_main_v16 (F := Ideal) (m ((c : Thread nD τ).loc main_arg0)) (m ((c : Thread nD τ).loc main_arg4)) (m ((c : Thread nD τ).loc main_arg6)) := by
  rw [Cert.KernelIdeal.NodeRegion.final (V1 m ρ) c, Cert.ReferenceIdeal.RefRead.node_eq, Fold.entry0_x, Fold.entry0_w]
  exact congrArg _ (funext fun j => Fold.entry0_b m ρ c j)

/-- The projection region's output array is the reference's projection stage of the arguments. -/
theorem proj_array (c : Dev nD) :
    (dat1 (V2 m ρ) c).arrAt 2 cfg1.N
      = val_main_v1 (F := Ideal) (m ((c : Thread nD τ).loc main_arg1)) (m ((c : Thread nD τ).loc main_arg5)) := by
  rw [Cert.KernelIdeal.ProjRegion.final (V2 m ρ) c, Cert.ReferenceIdeal.RefRead.proj_eq, Fold.entry1_x, Fold.entry1_w]

/-- The dense region's output array is the reference's edge result of the arguments. -/
theorem edge_array (c : Dev nD) :
    (dat2 (V4 m ρ) c).arrAt 7 cfg2.N
      = val_main_v50 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6))
          (m ((c : Thread nD τ).loc main_arg7)) (m ((c : Thread nD τ).loc main_arg8)) (m ((c : Thread nD τ).loc main_arg9)) := by
  rw [Cert.KernelIdeal.DenseRegion.final (V4 m ρ) c, Cert.ReferenceIdeal.RefRead.val_main_v50_stage, Cert.ReferenceIdeal.RefRead.edge_eq,
    Fold.entry2_efp, Fold.entry2_nb, Fold.entry2_src, Fold.entry2_dst, Fold.entry2_w, proj_array, node_array,
    Cert.HostChain.gather_mean, Cert.HostChain.gather_src, Cert.HostChain.gather_dst]
  exact congrArg₂ _ (funext fun j => Fold.entry2_bd m ρ c j) (funext fun j => Fold.entry2_be m ρ c j)

/-- Every weakly fair execution of the kernel's program ends with the two results at the reference's stages of the
    arguments, the arguments unchanged. -/
theorem run : θ_run defs (onTc (τ := τ) (main (F := Ideal))) ⟨m, fun _ => 0, ρ⟩ (fun r => ∀ c : Dev nD,
      r.2.mem ((c.tc : Thread nD τ).loc main_v1)
        = val_main_v16 (F := Ideal) (m ((c : Thread nD τ).loc main_arg0)) (m ((c : Thread nD τ).loc main_arg4)) (m ((c : Thread nD τ).loc main_arg6))
      ∧ r.2.mem ((c.tc : Thread nD τ).loc main_v37)
        = val_main_v50 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6))
          (m ((c : Thread nD τ).loc main_arg7)) (m ((c : Thread nD τ).loc main_arg8)) (m ((c : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
      ⟨(h c).1.trans ((Fold.out_node m ρ c).trans (node_array m ρ c)),
       (h c).2.1.trans ((Fold.out_edge m ρ c).trans (edge_array m ρ c)),
       (h c).2.2⟩)
    (Cert.KernelIdeal.RunAt.run (F := Ideal) m ρ)

end Cert.KernelIdeal.Result

end
-- ==== Proof.lean ====
/-
  One message-passing layer on a graph of 50 000 nodes and 1 600 000 edges, 64 features wide, computed by three tiled
  kernels with host gathers and a scatter-added mean between them, against the same layer written with plain array
  operations.

  Both programs compute, over the extended reals,
    nf_out = max(nf · W_node + b_node, 0),
    ef_p   = ef · W_edge,
    nb     = (Σ over the edges into a node of ef_p) / max(number of such edges, 1),
    ef_out = max([ef_p + nb[dst], (nf_out[src] + nf_out[dst]) · ½] · W_dense + b_dense + b_edge, 0).
  The kernels compute the three matrix products block of rows by block of rows; a block's rows depend on the same rows
  of its operands only, so the blocks tile the whole-array products, and a product into a zero accumulator is the
  plain sum over the contracted index, as the reference's is. The roundings to a shorter float format the kernels
  apply before each product are the identity over the reals. The index wrap, the two scatter-adds, the division and
  the three gathers are the same host operations in both programs and are carried as they are, never opened. No law
  beyond that is needed, so the finiteness of the inputs is not used.
-/
import proofs.«157868_j17849884082713_1_alg».proof.Defs
import proofs.«157868_j17849884082713_1_alg».proof.Proof.Gen.Kernel
import proofs.«157868_j17849884082713_1_alg».proof.Proof.Gen.Kernel.Skeleton
import proofs.«157868_j17849884082713_1_alg».proof.Proof.Gen.Kernel.Launch
import proofs.«157868_j17849884082713_1_alg».proof.Proof.Gen.Kernel.Points
import proofs.«157868_j17849884082713_1_alg».proof.Proof.Gen.Kernel.Frame
import proofs.«157868_j17849884082713_1_alg».proof.Proof.Gen.KernelIdeal
import proofs.«157868_j17849884082713_1_alg».proof.Proof.Gen.KernelIdeal.Skeleton
import proofs.«157868_j17849884082713_1_alg».proof.Proof.Gen.KernelIdeal.Launch
import proofs.«157868_j17849884082713_1_alg».proof.Proof.Gen.KernelIdeal.Points
import proofs.«157868_j17849884082713_1_alg».proof.Proof.Gen.KernelIdeal.Frame
import proofs.«157868_j17849884082713_1_alg».proof.Proof.Gen.ReferenceIdeal
import proofs.«157868_j17849884082713_1_alg».proof.Proof.Gen.ReferenceIdeal.Run
import proofs.«157868_j17849884082713_1_alg».proof.Proof.Gen.ReferenceIdeal.Read
import proofs.«157868_j17849884082713_1_alg».proof.Proof.Gen.Pre_finite_inputs
import proofs.«157868_j17849884082713_1_alg».proof.Proof.KernelValue
import Idealize.ShloMosaic.Adequacy
import Idealize.ShloMosaic.Init

noncomputable section

namespace Cert.Proof

open Idealize.ShloMosaic Idealize.SL.Sem

/-- The kernels' program as printed runs to the end and leaves its arguments alone. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is host operations only: its run, with the two results forgotten. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- No operation of the kernels was rewritten for the reading over the reals. -/
theorem preserves : Cert.preserves_Kernel_KernelIdeal := trivial

/-- From memories that agree on the arguments both programs end with the node update and the edge update of the
    arguments: the kernels' program by its regions' arrays read through the host operations between them, the reference
    by its run. -/
theorem algebraic : Cert.algebraic_KernelIdeal_ReferenceIdeal := by
  intro m ρ m' ρ' _ hagree
  refine ⟨_, _, Cert.KernelIdeal.Result.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [(hagree c).1, (hagree c).2.2.2.2.1, (hagree c).2.2.2.2.2.2.1]
    exact Cert.ReferenceIdeal.Read.val_main_v16_eq _ _ _
  · rw [(hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2]
    exact Cert.ReferenceIdeal.Read.val_main_v50_eq _ _ _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
